-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S64x1 : Shape := ⟨2, ![64, 1]⟩
abbrev S5000x128 : Shape := ⟨2, ![5000, 128]⟩
abbrev S1x128 : Shape := ⟨2, ![1, 128]⟩
abbrev S1600000x128 : Shape := ⟨2, ![1600000, 128]⟩
abbrev S5000x1 : Shape := ⟨2, ![5000, 1]⟩
abbrev S64x64 : Shape := ⟨2, ![64, 64]⟩
abbrev S64x128 : Shape := ⟨2, ![64, 128]⟩
abbrev S5000x64 : Shape := ⟨2, ![5000, 64]⟩
abbrev S1x64 : Shape := ⟨2, ![1, 64]⟩

abbrev nBuf : Space → Nat
  | .hbm => 108
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S_, .i32⟩
  | .hbm, ⟨18, _⟩ => ⟨S100000, .i32⟩
  | .hbm, ⟨19, _⟩ => ⟨S1600000x1, .i32⟩
  | .hbm, ⟨20, _⟩ => ⟨S100000, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S100000, .f32⟩
  | .hbm, ⟨46, _⟩ => ⟨S100000x1, .f32⟩
  | .hbm, ⟨47, _⟩ => ⟨S_, .i32⟩
  | .hbm, ⟨48, _⟩ => ⟨S100000, .i32⟩
  | .hbm, ⟨49, _⟩ => ⟨S_, .i32⟩
  | .hbm, ⟨50, _⟩ => ⟨S64, .i32⟩
  | .hbm, ⟨51, _⟩ => ⟨S100000x1, .i32⟩
  | .hbm, ⟨52, _⟩ => ⟨S64, .i32⟩
  | .hbm, ⟨53, _⟩ => ⟨S64, .f32⟩
  | .hbm, ⟨54, _⟩ => ⟨S64x1, .f32⟩
  | .hbm, ⟨55, _⟩ => ⟨S100000x1, .i32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S1600000x1, .f32⟩
  | .hbm, ⟨67, _⟩ => ⟨S1600000x128, .f32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S1600000x1, .f32⟩
  | .hbm, ⟨84, _⟩ => ⟨S1600000x128, .f32⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S100000x128, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000x128, .f32⟩
  | .hbm, ⟨100, _⟩ => ⟨S1600000x1, .f32⟩
  | .hbm, ⟨101, _⟩ => ⟨S1600000x128, .f32⟩
  | .hbm, ⟨102, _⟩ => ⟨S1600000x128, .f32⟩
  | .hbm, ⟨103, _⟩ => ⟨S_, .f32⟩
  | .hbm, ⟨104, _⟩ => ⟨S100000x128, .f32⟩
  | .hbm, ⟨105, _⟩ => ⟨S1600000x1, .i32⟩
  | .hbm, ⟨106, _⟩ => ⟨S100000x128, .f32⟩
  | .hbm, ⟨107, _⟩ => ⟨S64x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S128x128, .f32⟩
  | .local _ .vmem, ⟨23, _⟩ => ⟨S128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S5000x1, .i32⟩
  | .local _ .vmem, ⟨33, _⟩ => ⟨S5000x1, .i32⟩
  | .local _ .vmem, ⟨34, _⟩ => ⟨S64x1, .f32⟩
  | .local _ .vmem, ⟨35, _⟩ => ⟨S128x64, .f32⟩
  | .local _ .vmem, ⟨36, _⟩ => ⟨S64, .f32⟩
  | .local _ .vmem, ⟨37, _⟩ => ⟨S64x64, .f32⟩
  | .local _ .vmem, ⟨38, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem5_0 : DmaSem sig := 35
abbrev cc3_sem6_0 : DmaSem sig := 36
abbrev cc3_sem7_0 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v27 : BitVec 1 := Scalar.cmpi .eq arg0 c19_i32
  let v28 : BitVec 32 := Scalar.extui v27
  let c0_i32_12 : BitVec 32 := 0#32
  let v29 : BitVec 1 := Scalar.cmpi .ne v28 c0_i32_12
  v29

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S5000x64_d1_w32 : S5000x64.Iotas .tc 32 [1]
  broadcasts_S5000x1_S5000x64 : S5000x1.Broadcasts S5000x64
  natLt_1_32 : 1 < 32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S64x64 : S1x64.Broadcasts S64x64
  inb_S64x64_S64x64_0_0 : ∀ a, (![0, 0] : Fin 2 → Nat) a + S64x64.size a ≤ S64x64.size a
  h_S64x64 : 0 < S64x64.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  scatter_S64_S100000x1_S100000_n_0_0_1_wf : ScatterDims.WF S64 S100000x1 S100000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x64_S5000x128_S64x128_0_0_1_1_n_n_wf : DotDims.WF S5000x64 S5000x128 S64x128 [0] [0] [1] [1] [] []
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .i32 = 32 ∨ (Rect.block (s := S100000x1) S5000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x1.size a ≤ S64x1.size a
  hwx3_4 : ∀ i : grid3.Coords, EltTy.bits .f32 = 32 ∨ (Rect.block (s := S64x1) S64x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S128x64.size a
  hwx3_5 : ∀ i : grid3.Coords, EltTy.bits .f32 = 32 ∨ (Rect.block (s := S128x64) S128x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v77) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v35) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v34) S64x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg9) S128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg10) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v78) S64x64.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x128 : Shape := ⟨2, ![1, 128]⟩
abbrev S1600000x128 : Shape := ⟨2, ![1600000, 128]⟩
abbrev S100000x1 : Shape := ⟨2, ![100000, 1]⟩
abbrev S64x128 : Shape := ⟨2, ![64, 128]⟩
abbrev S64x1 : Shape := ⟨2, ![64, 1]⟩
abbrev S64x64 : Shape := ⟨2, ![64, 64]⟩
abbrev S1x64 : Shape := ⟨2, ![1, 64]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S100000, .f32⟩
  | 45 => ⟨S100000x128, .f32⟩
  | 46 => ⟨S1x128, .f32⟩
  | 47 => ⟨S100000x128, .f32⟩
  | 48 => ⟨S100000x128, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S1600000x1, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000x1, .f32⟩
  | 66 => ⟨S100000x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x128, .f32⟩
  | 85 => ⟨S1600000x1, .f32⟩
  | 86 => ⟨S1600000x128, .f32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S100000x1, .f32⟩
  | 93 => ⟨S100000x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S1600000x1, .f32⟩
  | 113 => ⟨S1600000x128, .f32⟩
  | 114 => ⟨S1600000x128, .f32⟩
  | 115 => ⟨S_, .f32⟩
  | 116 => ⟨S100000x128, .f32⟩
  | 117 => ⟨S1600000x1, .i32⟩
  | 118 => ⟨S100000x128, .f32⟩
  | 119 => ⟨S100000x1, .f32⟩
  | 120 => ⟨S100000x128, .f32⟩
  | 121 => ⟨S100000x128, .f32⟩
  | 122 => ⟨S100000x128, .f32⟩
  | 123 => ⟨S_, .f32⟩
  | 124 => ⟨S64x128, .f32⟩
  | 125 => ⟨S100000x1, .i32⟩
  | 126 => ⟨S64x128, .f32⟩
  | 127 => ⟨S_, .f32⟩
  | _ => ⟨S100000x128, .f32⟩

abbrev hbmTy0_1 (i : Nat) : BufTy := match i % 128 with
  | 0 => ⟨S100000, .f32⟩
  | 1 => ⟨S_, .f32⟩
  | 2 => ⟨S64, .f32⟩
  | 3 => ⟨S100000x1, .i32⟩
  | 4 => ⟨S64, .f32⟩
  | 5 => ⟨S_, .f32⟩
  | 6 => ⟨S64, .f32⟩
  | 7 => ⟨S64, .f32⟩
  | 8 => ⟨S64x1, .f32⟩
  | 9 => ⟨S64x128, .f32⟩
  | 10 => ⟨S64x128, .f32⟩
  | 11 => ⟨S64x64, .f32⟩
  | 12 => ⟨S1x64, .f32⟩
  | 13 => ⟨S64x64, .f32⟩
  | 14 => ⟨S64x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_8 : Ref sig .tc := ⟨.hbm, 76, rfl⟩
abbrev main_v53 : Ref sig .tc := ⟨.hbm, 77, rfl⟩
abbrev main_v54 : Ref sig .tc := ⟨.hbm, 78, rfl⟩
abbrev main_c_9 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_10 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_call1_cst : Ref sig .tc := ⟨.hbm, 96, rfl⟩
abbrev main_call1_v0 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_11 : Ref sig .tc := ⟨.hbm, 103, rfl⟩
abbrev main_v75 : Ref sig .tc := ⟨.hbm, 104, rfl⟩
abbrev main_v76 : Ref sig .tc := ⟨.hbm, 105, rfl⟩
abbrev main_c_12 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_13 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_14 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_15 : Ref sig .tc := ⟨.hbm, 127, rfl⟩
abbrev main_v95 : Ref sig .tc := ⟨.hbm, 128, rfl⟩
abbrev main_cst_16 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_17 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

class Facts : Prop extends Facts₀ where

variable [Facts]
-- ==== Proof.KI.R0.lean ====
import proofs.«429065_j59115929862863_2_alg».proof.Proof.Gen.KernelIdeal.Launch
import proofs.«429065_j59115929862863_2_alg».proof.Proof.Gen.KernelIdeal.Skeleton
import proofs.«429065_j59115929862863_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a PARAMETER of everything in this module
variable (V : (c : Dev nD) → (b : Ref sig .tc) → Buf (Elt F) ((c : Thread nD τ).loc b))

/-! # REGION 0 of @main: pallas_call 0, the matmul-plus-bias kernel (pipeline 0), at the entry contents `V`

The body reads its three input blocks whole (the row block `x`, the weight matrix `W`, the bias `b`), computes
`bf16(x) · bf16(W) + b` (the payload `k0_pay1`), reads the output buffer without using what it read, and stores the
result over the whole output buffer. So after the body every input buffer still holds its block and the output buffer
holds the payload of the three input blocks. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is
    `V`'s (`hA`) and whose body leaves the block in place (`hafter`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the weights) likewise. Its block index is the same at every point, so it is fetched at the first
    point only; at a later point the buffer still holds the previous point's block, which is this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the bias) likewise: constant block index, fetched at the first point only. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer, at zero offsets -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S128 := Rect.unit (s := S128) ![0] S128.size inb_S128_S128_0

/-- The zero offsets of a rank-2 access, and of a rank-1 access, are the constant-zero offsets (local to this module). -/
private theorem zero_offs_mat : (![0, 0] : Fin 2 → Nat) = fun _ => 0 := by
  funext a; fin_cases a <;> rfl
private theorem zero_offs_vec : (![0] : Fin 1 → Nat) = fun _ => 0 := by
  funext a; fin_cases a; rfl

/-! ## What the body leaves in the output window's buffer -/

/-- Window 3's staging buffer after the body, from the input windows' buffers: its one store as a piece over what the
    loads read. -/
def out0_3 (x0 : Vec F S5000x128 .f32) (x1 : Vec F S128x128 .f32) (x2 : Vec F S128 .f32) : Vec F S5000x128 .f32 :=
  View.canon [⟨r0_0, k0_pay1 (View.ld x0 r0_0) (View.ld x1 r0_1) (View.ld x2 r0_2)⟩]

/-- Every load reads the whole of its buffer and the store writes the whole output buffer, so what is left is simply
    the payload of the three buffers' contents. -/
theorem out0_3_eq (x0 : Vec F S5000x128 .f32) (x1 : Vec F S128x128 .f32) (x2 : Vec F S128 .f32) :
    out0_3 x0 x1 x2 = k0_pay1 x0 x1 x2 := by
  unfold out0_3
  rw [View.canon_unit_zero zero_offs_mat, View.ld_unit_zero zero_offs_mat, View.ld_unit_zero zero_offs_mat,
    View.ld_unit_zero zero_offs_vec]

/-- The store tiles the buffer, so it covers it. -/
theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents `xW` and the output's at anything, runs to
    the continuation holding the inputs' as they were and the output's at the payload of the inputs' contents. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole)
    (x0 : Vec F S5000x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (k0_pay1 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact (View.read_writes_eq_canon _ _ _ (cover0_3 _)).trans
    (out0_3_eq (arg1.view.read (Elt F) f0) (arg2.view.read (Elt F) f1) (arg3.view.read (Elt F) f2))

/-! ## The pipeline's proof data -/

/-- The proof data of pipeline 0 on core `c`: the arrays as the region finds them (`V`); after the body at
    point `t` each input's buffer at its block and the output's at the payload of the input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«429065_j59115929862863_2_alg».proof.Proof.Gen.KernelIdeal.Launch
import proofs.«429065_j59115929862863_2_alg».proof.Proof.Gen.KernelIdeal.Skeleton
import proofs.«429065_j59115929862863_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a PARAMETER of everything in this module
variable (V : (c : Dev nD) → (b : Ref sig .tc) → Buf (Elt F) ((c : Thread nD τ).loc b))

/-! # A REGION of @main: a combine-relu-matmul pallas_call (pipeline `cfg1`), at the entry contents `V`

The body reads its five input blocks whole (the aggregate `agg`, the features `h`, the per-row factor `self_norm`,
the weight matrix `W`, the bias `b`), computes `bf16(relu(agg + h * self_norm)) · bf16(W) + b` (the payload
`k1_pay1`), reads the output buffer without using what it read, and stores the result over the whole output buffer.
So after the body every input buffer still holds its block and the output buffer holds the payload of the five input
blocks. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for ANY proof data whose array is
    `V`'s (`hA`) and whose body leaves the block in place (`hafter`); the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 (the weights) likewise. Its block index is the same at every point, so it is fetched at the first
    point only; at a later point the buffer still holds the previous point's block, which is this point's block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 (the bias) likewise: constant block index, fetched at the first point only. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer, at zero offsets -/

abbrev r1_0 : Rect S5000x128 := Rect.unit (s := S5000x128) ![0, 0] S5000x128.size inb_S5000x128_S5000x128_0_0
abbrev r1_2 : Rect S5000x1 := Rect.unit (s := S5000x1) ![0, 0] S5000x1.size inb_S5000x1_S5000x1_0_0
abbrev r1_3 : Rect S128x128 := Rect.unit (s := S128x128) ![0, 0] S128x128.size inb_S128x128_S128x128_0_0
abbrev r1_4 : Rect S128 := Rect.unit (s := S128) ![0] S128.size inb_S128_S128_0

/-- The zero offsets of a rank-2 access, and of a rank-one access, are the constant-zero offsets (local to this module). -/
private theorem zero_offs_mat : (![0, 0] : Fin 2 → Nat) = fun _ => 0 := by
  funext a; fin_cases a <;> rfl
private theorem zero_offs_vec : (![0] : Fin S128.rank → Nat) = fun _ => 0 := by
  funext a; fin_cases a; rfl

/-! ## What the body leaves in the output window's buffer -/

/-- Window 5's staging buffer after the body, from the input windows' buffers: its one store as a piece over what the
    loads read. -/
def out1_5 (x0 : Vec F S5000x128 .f32) (x1 : Vec F S5000x128 .f32) (x2 : Vec F S5000x1 .f32) (x3 : Vec F S128x128 .f32) (x4 : Vec F S128 .f32) : Vec F S5000x128 .f32 :=
  View.canon [⟨r1_0, k1_pay1 (View.ld x0 r1_0) (View.ld x1 r1_0) (View.ld x2 r1_2) (View.ld x3 r1_3) (View.ld x4 r1_4)⟩]

/-- Every load reads the whole of its buffer and the store writes the whole output buffer, so what is left is simply
    the payload of the five buffers' contents. -/
theorem out1_5_eq (x0 : Vec F S5000x128 .f32) (x1 : Vec F S5000x128 .f32) (x2 : Vec F S5000x1 .f32) (x3 : Vec F S128x128 .f32) (x4 : Vec F S128 .f32) :
    out1_5 x0 x1 x2 x3 x4 = k1_pay1 x0 x1 x2 x3 x4 := by
  unfold out1_5
  rw [View.canon_unit_zero zero_offs_mat, View.ld_unit_zero zero_offs_mat, View.ld_unit_zero zero_offs_mat,
    View.ld_unit_zero zero_offs_mat, View.ld_unit_zero zero_offs_mat, View.ld_unit_zero zero_offs_vec]

/-- The store tiles the buffer, so it covers it. -/
theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents `xW` and the output's at anything, runs to
    the continuation holding the inputs' as they were and the output's at the payload of the inputs' contents. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S5000x128 .f32) (x2 : Vec F S5000x1 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k1_pay1 x0 x1 x2 x3 x4)) -∗ K ⟨⟩))
      ⊢ wp frame (wpE (defs₀ (F := F)) Variants.none c none) E (cc1__combine_relu_matmul_kernel i arg1 harg1 arg2 harg2 arg3 harg3 arg4 harg4 arg5 harg5 arg6 harg6) K := by
  simp only [cc1__combine_relu_matmul_kernel_eq_skeleton]; unfold cc1__combine_relu_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover1_5 _)).trans
    (out1_5_eq (arg1.view.read (Elt F) f0) (arg2.view.read (Elt F) f1) (arg3.view.read (Elt F) f2)
      (arg4.view.read (Elt F) f3) (arg5.view.read (Elt F) f4))

/-! ## The pipeline's proof data -/

/-- The proof data of the pipeline on core `c`: the arrays as the region finds them (`V`); after the body at
    point `t` each input's buffer at its block and the output's at the payload of the input blocks; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay1 (iblk1 V c 0 t) (iblk1 V c 1 t) (iblk1 V c 2 t) (iblk1 V c 3 t) (iblk1 V c 4 t) := by
  dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R3Defs.lean ====
import proofs.«429065_j59115929862863_2_alg».proof.Proof.Gen.KernelIdeal.Launch
import proofs.«429065_j59115929862863_2_alg».proof.Proof.Gen.KernelIdeal.Skeleton
import proofs.«429065_j59115929862863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a PARAMETER of everything in this module
variable (V : (c : Dev nD) → (b : Ref sig .tc) → Buf (Elt F) ((c : Thread nD τ).loc b))

/-! ## The windows' blocks and the accumulator -/

/-- Window `w`'s block at point `t`, read off its array as the region finds it. -/
def iblk3 (c : Dev nD) (w : Fin cfg3.W) (t : Fin cfg3.N) : ((cfg3.win w).xblock (cfg3.grid.coords t)).Idx → Elt F (cfg3.win w).elt := ((cfg3.win w).blk t).view.read (Elt F) (V c (Pipeline.arrRef spec3 w))

/-- the accumulator after point n -/
def acc3 (c : Dev nD) : (n : ℕ) → n < cfg3.N → Vec F S64x128 .f32
  | 0, h => k3_pay2 (iblk3 V c 0 ⟨0, h⟩) (iblk3 V c 1 ⟨0, h⟩) (iblk3 V c 2 ⟨0, h⟩) (iblk3 V c 3 ⟨0, h⟩) k3_pay1
  | n + 1, h => k3_pay2 (iblk3 V c 0 ⟨n + 1, h⟩) (iblk3 V c 1 ⟨n + 1, h⟩) (iblk3 V c 2 ⟨n + 1, h⟩) (iblk3 V c 3 ⟨n + 1, h⟩) (acc3 c n (Nat.lt_of_succ_lt h))

/-- At the first point the accumulator is the update of the zero block. -/
theorem acc3_zero (c : Dev nD) (h : 0 < cfg3.N) : acc3 V c 0 h = k3_pay2 (iblk3 V c 0 ⟨0, h⟩) (iblk3 V c 1 ⟨0, h⟩) (iblk3 V c 2 ⟨0, h⟩) (iblk3 V c 3 ⟨0, h⟩) k3_pay1 := by
  rw [acc3]

/-- At a later point it is the update of what the point before left. -/
theorem acc3_succ (c : Dev nD) (n : ℕ) (h : n + 1 < cfg3.N) : acc3 V c (n + 1) h = k3_pay2 (iblk3 V c 0 ⟨n + 1, h⟩) (iblk3 V c 1 ⟨n + 1, h⟩) (iblk3 V c 2 ⟨n + 1, h⟩) (iblk3 V c 3 ⟨n + 1, h⟩) (acc3 V c n (Nat.lt_of_succ_lt h)) := by
  rw [acc3]

/-- The same at a point that is not the first, the predecessor written with subtraction. -/
theorem acc3_pos (c : Dev nD) (t : Fin cfg3.N) (hz : t.val ≠ 0) :
    acc3 V c t.val t.isLt = k3_pay2 (iblk3 V c 0 t) (iblk3 V c 1 t) (iblk3 V c 2 t) (iblk3 V c 3 t) (acc3 V c (t.val - 1) (Nat.lt_of_le_of_lt (Nat.sub_le _ _) t.isLt)) := by
  obtain ⟨n, hn⟩ := t
  cases n with
  | zero => exact absurd rfl hz
  | succ n => exact acc3_succ V c n hn

/-- And at the first point. -/
theorem acc3_first (c : Dev nD) (t : Fin cfg3.N) (hz : t.val = 0) :
    acc3 V c t.val t.isLt = k3_pay2 (iblk3 V c 0 t) (iblk3 V c 1 t) (iblk3 V c 2 t) (iblk3 V c 3 t) k3_pay1 := by
  obtain ⟨n, hn⟩ := t
  cases n with
  | zero => exact acc3_zero V c hn
  | succ n => exact absurd hz (Nat.succ_ne_zero n)

/-! ## The region invariant -/

/-- The scratch accumulator as a memref: the kernel's own whole scoped buffer, passed beside the windows. -/
abbrev scM3 : Memref sig .tc .vmem S64x128 .f32 := Memref.whole cc3_scratch0

/-- The invariant before position `n`: before the first point the class's (every scoped buffer that is no staging
    buffer at anything, the generator register at some state); afterwards the scratch accumulator at what the point
    before left in it, every other such buffer at anything, the generator register at some state. -/
def PhiS3 (c : Dev nD) : (n : ℕ) → n ≤ cfg3.N → sProp 𝕄
  | 0, _ => Pipeline.ΦA spec3 c
  | n + 1, hn => iprop(owns (c : Thread nD τ) (Memref.whole cc3_scratch0) fullShare (acc3 V c n hn) ∗ Pipeline.scopedRestBut (Ix := Unit) (Name := ℕ) (U := UR sig nD τ) (Lvl := ℕ) (Val := Elt F) spec3 c [cc3_scratch0] ∗ ∃ r, prngReg c r)

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) (Memref.whole cc3_scratch0) fullShare (acc3 V c n hn) ∗ Pipeline.scopedRestBut (Ix := Unit) (Name := ℕ) (U := UR sig nD τ) (Lvl := ℕ) (Val := Elt F) spec3 c [cc3_scratch0] ∗ ∃ r, prngReg c r) := rfl

theorem PhiS3_pos (c : Dev nD) (n : ℕ) (h : n ≤ cfg3.N) (hz : n ≠ 0) :
    PhiS3 V c n h = iprop(owns (c : Thread nD τ) (Memref.whole cc3_scratch0) fullShare (acc3 V c (n - 1) (by omega)) ∗ Pipeline.scopedRestBut (Ix := Unit) (Name := ℕ) (U := UR sig nD τ) (Lvl := ℕ) (Val := Elt F) spec3 c [cc3_scratch0] ∗ ∃ r, prngReg c r) := by
  cases n with
  | zero => exact absurd rfl hz
  | succ n => rfl

/-! ## The proof data -/

/-- The proof data of pallas_call 3 on core `c`: the arrays as the region finds them; after the body at point `t` each
    input's buffer at its block, the output's at the projection of the accumulator (consulted at the last point only);
    the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => k3_pay3 (acc3 V c t.val t.isLt) (iblk3 V c 4 t) (iblk3 V c 5 t) (iblk3 V c 6 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = k3_pay3 (acc3 V c t.val t.isLt) (iblk3 V c 4 t) (iblk3 V c 5 t) (iblk3 V c 6 t) := by dsimp only [dat3]

theorem owed3 (c : Dev nD) (t : Fin (cfg3.N + 1)) : (dat3 V c).owed t = 0 := rfl

theorem q3 (c : Dev nD) (w : Fin cfg3.W) : (dat3 V c).q w = fullShare := rfl

end Cert.KernelIdeal.Hand

end
-- ==== Proof.KI.Fold.lean ====
/-
  The contents of the TensorCore's buffers between the segments of the main program: launch contents, then each host
  stretch's operations applied, then each pallas call's arrays at what its pipeline leaves (the inputs as entered, the output's
  written-back blocks folded in).  With what each step leaves unchanged.
-/
import proofs.«429065_j59115929862863_2_alg».proof.Proof.Gen.KernelIdeal.Launch
import proofs.«429065_j59115929862863_2_alg».proof.Proof.Gen.KernelIdeal.Skeleton
import proofs.«429065_j59115929862863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«429065_j59115929862863_2_alg».proof.Proof.Gen.KernelIdeal.Regions
import proofs.«429065_j59115929862863_2_alg».proof.Proof.KI.R0
import proofs.«429065_j59115929862863_2_alg».proof.Proof.KI.R1
import proofs.«429065_j59115929862863_2_alg».proof.Proof.KI.R2
import proofs.«429065_j59115929862863_2_alg».proof.Proof.KI.R3Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the main program: host stretches and pallas calls in turn

## The buffer contents at each boundary: a fold through the main program -/

variable (m : (ℓ : Loc nD τ sig) → Buf (Elt F) ℓ)

/-- Core `c`'s buffers at launch. -/
abbrev W0 : Dev nD → Valuation τ sig (Elt F) := fun c b => m (c, b)
/-- After the first host stretch (pallas call 0's entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b

/-- At pallas call 0's exit: its arrays at what the pipeline leaves (the inputs as entered, the output's write-backs folded),
    every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (pallas call 1's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b

/-- At pallas call 1's exit: its arrays at what the pipeline leaves (the inputs as entered, the output's write-backs folded),
    every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the third host stretch (pallas call 2's entry). -/
abbrev W5 : Dev nD → Valuation τ sig (Elt F) := fun c => StableHlo.after hostOps2 (W4 m c)
abbrev E5 : (c : Dev nD) → (b : Ref sig .tc) → Buf (Elt F) ((c : Thread nD τ).loc b) := fun c b => W5 m c b

/-- At pallas call 2's exit: its arrays at what the pipeline leaves (the inputs as entered, the output's write-backs folded),
    every other buffer as entered. -/
def W6 (c : Dev nD) : Valuation τ sig (Elt F) :=
  Pipeline.withArrays spec2 c (W5 m c) fun w => (dat2 (E5 m) c).arrAt w cfg2.N
theorem W6_arr (c : Dev nD) (w : Fin cfg2.W) :
    W6 m c (Proc.devRef .tc (Pipeline.arrRef spec2 w)) = (dat2 (E5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev E6 : (c : Dev nD) → (b : Ref sig .tc) → Buf (Elt F) ((c : Thread nD τ).loc b) := fun c b => W6 m c b
theorem hF2 (c : Dev nD) (w : Fin cfg2.W) : (dat2 (E5 m) c).arrAt w cfg2.N = E6 m c (Pipeline.arrRef spec2 w) :=
  (W6_arr m c w).symm
theorem hrest2 (c : Dev nD) : ∀ b, b ∉ Finset.univ.image (Pipeline.arrRef spec2) → E6 m c b = E5 m c b :=
  fun b hb => W6_of_ne m c b fun w e => hb (Finset.mem_image.mpr ⟨w, Finset.mem_univ _, e⟩)

/-- After the fourth host stretch (pallas call 3's entry). -/
abbrev W7 : Dev nD → Valuation τ sig (Elt F) := fun c => StableHlo.after hostOps3 (W6 m c)
abbrev E7 : (c : Dev nD) → (b : Ref sig .tc) → Buf (Elt F) ((c : Thread nD τ).loc b) := fun c b => W7 m c b

/-- At pallas call 3's exit: its arrays at what the pipeline leaves (the inputs as entered, the output's write-backs folded),
    every other buffer as entered. -/
def W8 (c : Dev nD) : Valuation τ sig (Elt F) :=
  Pipeline.withArrays spec3 c (W7 m c) fun w => (dat3 (E7 m) c).arrAt w cfg3.N
theorem W8_arr (c : Dev nD) (w : Fin cfg3.W) :
    W8 m c (Proc.devRef .tc (Pipeline.arrRef spec3 w)) = (dat3 (E7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same read at the TensorCore's references. -/
abbrev E8 : (c : Dev nD) → (b : Ref sig .tc) → Buf (Elt F) ((c : Thread nD τ).loc b) := fun c b => W8 m c b
theorem hF3 (c : Dev nD) (w : Fin cfg3.W) : (dat3 (E7 m) c).arrAt w cfg3.N = E8 m c (Pipeline.arrRef spec3 w) :=
  (W8_arr m c w).symm
theorem hrest3 (c : Dev nD) : ∀ b, b ∉ Finset.univ.image (Pipeline.arrRef spec3) → E8 m c b = E7 m c b :=
  fun b hb => W8_of_ne m c b fun w e => hb (Finset.mem_image.mpr ⟨w, Finset.mem_univ _, e⟩)

/-! ## What each step leaves unchanged -/

/-- Host stretch 0 leaves every buffer it does not write. -/
theorem W1_keep (c : Dev nD) (b : Ref sig .tc) (h : b ∉ hostOps0_W) :
    W1 m c (Proc.devRef .tc b) = W0 m c (Proc.devRef .tc b) :=
  StableHlo.after_of_writes_sub hostOps0 _ hostOps0_writes h

/-- Pallas call 0 changes no buffer but its output array: an input array comes back as entered, any other buffer is untouched. -/
theorem W2_keep (c : Dev nD) (b : Ref sig .tc) (hb : b ≠ main_v36) :
    W2 m c (Proc.devRef .tc b) = W1 m c (Proc.devRef .tc b) := by
  by_cases h : ∃ w, Pipeline.arrRef spec0 w = b
  · obtain ⟨w, rfl⟩ := h
    refine (W2_arr m c w).trans ?_
    match w, hb with
    | ⟨0, _⟩, _ => exact ((dat0 (E1 m) c).arrAt_in 0 rfl _).trans (A_eq0 (E1 m) c 0)
    | ⟨1, _⟩, _ => exact ((dat0 (E1 m) c).arrAt_in 1 rfl _).trans (A_eq0 (E1 m) c 1)
    | ⟨2, _⟩, _ => exact ((dat0 (E1 m) c).arrAt_in 2 rfl _).trans (A_eq0 (E1 m) c 2)
    | ⟨3, _⟩, hb => exact absurd rfl hb
  · exact W2_of_ne m c b fun w e => h ⟨w, e⟩

/-- Host stretch 1 leaves every buffer it does not write. -/
theorem W3_keep (c : Dev nD) (b : Ref sig .tc) (h : b ∉ hostOps1_W) :
    W3 m c (Proc.devRef .tc b) = W2 m c (Proc.devRef .tc b) :=
  StableHlo.after_of_writes_sub hostOps1 _ hostOps1_writes h

/-- Pallas call 1 changes no buffer but its output array: an input array comes back as entered, any other buffer is untouched. -/
theorem W4_keep (c : Dev nD) (b : Ref sig .tc) (hb : b ≠ main_v50) :
    W4 m c (Proc.devRef .tc b) = W3 m c (Proc.devRef .tc b) := by
  by_cases h : ∃ w, Pipeline.arrRef spec1 w = b
  · obtain ⟨w, rfl⟩ := h
    refine (W4_arr m c w).trans ?_
    match w, hb with
    | ⟨0, _⟩, _ => exact ((dat1 (E3 m) c).arrAt_in 0 rfl _).trans (A_eq1 (E3 m) c 0)
    | ⟨1, _⟩, _ => exact ((dat1 (E3 m) c).arrAt_in 1 rfl _).trans (A_eq1 (E3 m) c 1)
    | ⟨2, _⟩, _ => exact ((dat1 (E3 m) c).arrAt_in 2 rfl _).trans (A_eq1 (E3 m) c 2)
    | ⟨3, _⟩, _ => exact ((dat1 (E3 m) c).arrAt_in 3 rfl _).trans (A_eq1 (E3 m) c 3)
    | ⟨4, _⟩, _ => exact ((dat1 (E3 m) c).arrAt_in 4 rfl _).trans (A_eq1 (E3 m) c 4)
    | ⟨5, _⟩, hb => exact absurd rfl hb
  · exact W4_of_ne m c b fun w e => h ⟨w, e⟩

/-- Host stretch 2 leaves every buffer it does not write. -/
theorem W5_keep (c : Dev nD) (b : Ref sig .tc) (h : b ∉ hostOps2_W) :
    W5 m c (Proc.devRef .tc b) = W4 m c (Proc.devRef .tc b) :=
  StableHlo.after_of_writes_sub hostOps2 _ hostOps2_writes h

/-- Pallas call 2 changes no buffer but its output array: an input array comes back as entered, any other buffer is untouched. -/
theorem W6_keep (c : Dev nD) (b : Ref sig .tc) (hb : b ≠ main_v64) :
    W6 m c (Proc.devRef .tc b) = W5 m c (Proc.devRef .tc b) := by
  by_cases h : ∃ w, Pipeline.arrRef spec2 w = b
  · obtain ⟨w, rfl⟩ := h
    refine (W6_arr m c w).trans ?_
    match w, hb with
    | ⟨0, _⟩, _ => exact ((dat2 (E5 m) c).arrAt_in 0 rfl _).trans (A_eq2 (E5 m) c 0)
    | ⟨1, _⟩, _ => exact ((dat2 (E5 m) c).arrAt_in 1 rfl _).trans (A_eq2 (E5 m) c 1)
    | ⟨2, _⟩, _ => exact ((dat2 (E5 m) c).arrAt_in 2 rfl _).trans (A_eq2 (E5 m) c 2)
    | ⟨3, _⟩, _ => exact ((dat2 (E5 m) c).arrAt_in 3 rfl _).trans (A_eq2 (E5 m) c 3)
    | ⟨4, _⟩, _ => exact ((dat2 (E5 m) c).arrAt_in 4 rfl _).trans (A_eq2 (E5 m) c 4)
    | ⟨5, _⟩, hb => exact absurd rfl hb
  · exact W6_of_ne m c b fun w e => h ⟨w, e⟩

/-- Host stretch 3 leaves every buffer it does not write. -/
theorem W7_keep (c : Dev nD) (b : Ref sig .tc) (h : b ∉ hostOps3_W) :
    W7 m c (Proc.devRef .tc b) = W6 m c (Proc.devRef .tc b) :=
  StableHlo.after_of_writes_sub hostOps3 _ hostOps3_writes h

/-- Pallas call 3 changes no buffer but its output array: an input array comes back as entered, any other buffer is untouched. -/
theorem W8_keep (c : Dev nD) (b : Ref sig .tc) (hb : b ≠ main_v78) :
    W8 m c (Proc.devRef .tc b) = W7 m c (Proc.devRef .tc b) := by
  by_cases h : ∃ w, Pipeline.arrRef spec3 w = b
  · obtain ⟨w, rfl⟩ := h
    refine (W8_arr m c w).trans ?_
    match w, hb with
    | ⟨0, _⟩, _ => exact ((dat3 (E7 m) c).arrAt_in 0 rfl _).trans (A_eq3 (E7 m) c 0)
    | ⟨1, _⟩, _ => exact ((dat3 (E7 m) c).arrAt_in 1 rfl _).trans (A_eq3 (E7 m) c 1)
    | ⟨2, _⟩, _ => exact ((dat3 (E7 m) c).arrAt_in 2 rfl _).trans (A_eq3 (E7 m) c 2)
    | ⟨3, _⟩, _ => exact ((dat3 (E7 m) c).arrAt_in 3 rfl _).trans (A_eq3 (E7 m) c 3)
    | ⟨4, _⟩, _ => exact ((dat3 (E7 m) c).arrAt_in 4 rfl _).trans (A_eq3 (E7 m) c 4)
    | ⟨5, _⟩, _ => exact ((dat3 (E7 m) c).arrAt_in 5 rfl _).trans (A_eq3 (E7 m) c 5)
    | ⟨6, _⟩, _ => exact ((dat3 (E7 m) c).arrAt_in 6 rfl _).trans (A_eq3 (E7 m) c 6)
    | ⟨7, _⟩, hb => exact absurd rfl hb
  · exact W8_of_ne m c b fun w e => h ⟨w, e⟩

/-! ## The arguments end as launched -/

theorem W8_main_arg0 (c : Dev nD) : W8 m c (Proc.devRef .tc main_arg0) = m ((c : Thread nD τ).loc main_arg0) :=
  (W8_keep m c main_arg0 (by decide)).trans <| (W7_keep m c main_arg0 (by decide)).trans <| (W6_keep m c main_arg0 (by decide)).trans <|
  (W5_keep m c main_arg0 (by decide)).trans <| (W4_keep m c main_arg0 (by decide)).trans <| (W3_keep m c main_arg0 (by decide)).trans <|
  (W2_keep m c main_arg0 (by decide)).trans <| (W1_keep m c main_arg0 (by decide)).trans rfl

theorem W8_main_arg1 (c : Dev nD) : W8 m c (Proc.devRef .tc main_arg1) = m ((c : Thread nD τ).loc main_arg1) :=
  (W8_keep m c main_arg1 (by decide)).trans <| (W7_keep m c main_arg1 (by decide)).trans <| (W6_keep m c main_arg1 (by decide)).trans <|
  (W5_keep m c main_arg1 (by decide)).trans <| (W4_keep m c main_arg1 (by decide)).trans <| (W3_keep m c main_arg1 (by decide)).trans <|
  (W2_keep m c main_arg1 (by decide)).trans <| (W1_keep m c main_arg1 (by decide)).trans rfl

theorem W8_main_arg2 (c : Dev nD) : W8 m c (Proc.devRef .tc main_arg2) = m ((c : Thread nD τ).loc main_arg2) :=
  (W8_keep m c main_arg2 (by decide)).trans <| (W7_keep m c main_arg2 (by decide)).trans <| (W6_keep m c main_arg2 (by decide)).trans <|
  (W5_keep m c main_arg2 (by decide)).trans <| (W4_keep m c main_arg2 (by decide)).trans <| (W3_keep m c main_arg2 (by decide)).trans <|
  (W2_keep m c main_arg2 (by decide)).trans <| (W1_keep m c main_arg2 (by decide)).trans rfl

theorem W8_main_arg3 (c : Dev nD) : W8 m c (Proc.devRef .tc main_arg3) = m ((c : Thread nD τ).loc main_arg3) :=
  (W8_keep m c main_arg3 (by decide)).trans <| (W7_keep m c main_arg3 (by decide)).trans <| (W6_keep m c main_arg3 (by decide)).trans <|
  (W5_keep m c main_arg3 (by decide)).trans <| (W4_keep m c main_arg3 (by decide)).trans <| (W3_keep m c main_arg3 (by decide)).trans <|
  (W2_keep m c main_arg3 (by decide)).trans <| (W1_keep m c main_arg3 (by decide)).trans rfl

theorem W8_main_arg4 (c : Dev nD) : W8 m c (Proc.devRef .tc main_arg4) = m ((c : Thread nD τ).loc main_arg4) :=
  (W8_keep m c main_arg4 (by decide)).trans <| (W7_keep m c main_arg4 (by decide)).trans <| (W6_keep m c main_arg4 (by decide)).trans <|
  (W5_keep m c main_arg4 (by decide)).trans <| (W4_keep m c main_arg4 (by decide)).trans <| (W3_keep m c main_arg4 (by decide)).trans <|
  (W2_keep m c main_arg4 (by decide)).trans <| (W1_keep m c main_arg4 (by decide)).trans rfl

theorem W8_main_arg5 (c : Dev nD) : W8 m c (Proc.devRef .tc main_arg5) = m ((c : Thread nD τ).loc main_arg5) :=
  (W8_keep m c main_arg5 (by decide)).trans <| (W7_keep m c main_arg5 (by decide)).trans <| (W6_keep m c main_arg5 (by decide)).trans <|
  (W5_keep m c main_arg5 (by decide)).trans <| (W4_keep m c main_arg5 (by decide)).trans <| (W3_keep m c main_arg5 (by decide)).trans <|
  (W2_keep m c main_arg5 (by decide)).trans <| (W1_keep m c main_arg5 (by decide)).trans rfl

theorem W8_main_arg6 (c : Dev nD) : W8 m c (Proc.devRef .tc main_arg6) = m ((c : Thread nD τ).loc main_arg6) :=
  (W8_keep m c main_arg6 (by decide)).trans <| (W7_keep m c main_arg6 (by decide)).trans <| (W6_keep m c main_arg6 (by decide)).trans <|
  (W5_keep m c main_arg6 (by decide)).trans <| (W4_keep m c main_arg6 (by decide)).trans <| (W3_keep m c main_arg6 (by decide)).trans <|
  (W2_keep m c main_arg6 (by decide)).trans <| (W1_keep m c main_arg6 (by decide)).trans rfl

theorem W8_main_arg7 (c : Dev nD) : W8 m c (Proc.devRef .tc main_arg7) = m ((c : Thread nD τ).loc main_arg7) :=
  (W8_keep m c main_arg7 (by decide)).trans <| (W7_keep m c main_arg7 (by decide)).trans <| (W6_keep m c main_arg7 (by decide)).trans <|
  (W5_keep m c main_arg7 (by decide)).trans <| (W4_keep m c main_arg7 (by decide)).trans <| (W3_keep m c main_arg7 (by decide)).trans <|
  (W2_keep m c main_arg7 (by decide)).trans <| (W1_keep m c main_arg7 (by decide)).trans rfl

theorem W8_main_arg8 (c : Dev nD) : W8 m c (Proc.devRef .tc main_arg8) = m ((c : Thread nD τ).loc main_arg8) :=
  (W8_keep m c main_arg8 (by decide)).trans <| (W7_keep m c main_arg8 (by decide)).trans <| (W6_keep m c main_arg8 (by decide)).trans <|
  (W5_keep m c main_arg8 (by decide)).trans <| (W4_keep m c main_arg8 (by decide)).trans <| (W3_keep m c main_arg8 (by decide)).trans <|
  (W2_keep m c main_arg8 (by decide)).trans <| (W1_keep m c main_arg8 (by decide)).trans rfl

theorem W8_main_arg9 (c : Dev nD) : W8 m c (Proc.devRef .tc main_arg9) = m ((c : Thread nD τ).loc main_arg9) :=
  (W8_keep m c main_arg9 (by decide)).trans <| (W7_keep m c main_arg9 (by decide)).trans <| (W6_keep m c main_arg9 (by decide)).trans <|
  (W5_keep m c main_arg9 (by decide)).trans <| (W4_keep m c main_arg9 (by decide)).trans <| (W3_keep m c main_arg9 (by decide)).trans <|
  (W2_keep m c main_arg9 (by decide)).trans <| (W1_keep m c main_arg9 (by decide)).trans rfl

theorem W8_main_arg10 (c : Dev nD) : W8 m c (Proc.devRef .tc main_arg10) = m ((c : Thread nD τ).loc main_arg10) :=
  (W8_keep m c main_arg10 (by decide)).trans <| (W7_keep m c main_arg10 (by decide)).trans <| (W6_keep m c main_arg10 (by decide)).trans <|
  (W5_keep m c main_arg10 (by decide)).trans <| (W4_keep m c main_arg10 (by decide)).trans <| (W3_keep m c main_arg10 (by decide)).trans <|
  (W2_keep m c main_arg10 (by decide)).trans <| (W1_keep m c main_arg10 (by decide)).trans rfl

end Cert.KernelIdeal.Hand

end
-- ==== Proof.KI.R3.lean ====
import proofs.«429065_j59115929862863_2_alg».proof.Proof.KI.R3Defs
import proofs.«429065_j59115929862863_2_alg».proof.Proof.Gen.KernelIdeal.Launch
import proofs.«429065_j59115929862863_2_alg».proof.Proof.Gen.KernelIdeal.Skeleton
import proofs.«429065_j59115929862863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a PARAMETER of everything in this module
variable (V : (c : Dev nD) → (b : Ref sig .tc) → Buf (Elt F) ((c : Thread nD τ).loc b))

/-! ## The closed forms of the body's conditions -/

/-- The condition of the body's first `scf.if`, from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 20 = 0 :=
  (by decide +kernel : ∀ t : Fin grid3.N, cond3_0 (grid3.coords t) ↔ t.val % 20 = 0)

/-- The condition of the body's second `scf.if`. -/
abbrev cond3_1 (i : grid3.Coords) : Prop := k3_cond2 i = 1#1
/-- It holds at the last point only. -/
theorem hcond3_1 : ∀ t : Fin cfg3.N, cond3_1 (grid3.coords t) ↔ t.val % 20 = 19 :=
  (by decide +kernel : ∀ t : Fin grid3.N, cond3_1 (grid3.coords t) ↔ t.val % 20 = 19)

/-! ## The body's three runs -/

/-- The zero offsets of a whole-block load or store, of rank 2 and of rank 1. -/
theorem off2_zero : (![0, 0] : Fin 2 → ℕ) = fun _ => 0 := by funext a; fin_cases a <;> rfl
theorem off1_zero : (![0] : Fin 1 → ℕ) = fun _ => 0 := by funext a; fin_cases a; rfl

set_option maxHeartbeats 1000000 in
/-- A MIDDLE point (neither conditional taken): the four moving blocks stay as they were, and the scratch, found at
    `xs`, is left at the update of `xs` by the blocks. -/
theorem run3_mid (c : Dev nD) (i : grid3.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S5000x1 .i32) (harg4 : arg4.IsWhole)
    (arg5 : Memref sig .tc .vmem S64x1 .f32) (harg5 : arg5.IsWhole) (arg6 : Memref sig .tc .vmem S128x64 .f32) (harg6 : arg6.IsWhole)
    (arg7 : Memref sig .tc .vmem S64 .f32) (harg7 : arg7.IsWhole) (arg8 : Memref sig .tc .vmem S64x64 .f32) (harg8 : arg8.IsWhole)
    (arg9 : Memref sig .tc .vmem S64x128 .f32) (harg9 : arg9.IsWhole)
    (hc0 : ¬cond3_0 i) (hc1 : ¬cond3_1 i)
    (x0 : Vec F S5000x128 .f32) (x1 : Vec F S5000x128 .f32) (x2 : Vec F S5000x1 .f32) (x3 : Vec F S5000x1 .i32) (xs : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg9 fullShare (k3_pay2 x0 x1 x2 x3 xs)) -∗ K ⟨⟩))
      ⊢ wp frame (wpE (defs₀ (F := F)) Variants.none c none) E (cc3__pool_fused_kernel i arg1 harg1 arg2 harg2 arg3 harg3 arg4 harg4 arg5 harg5 arg6 harg6 arg7 harg7 arg8 harg8 arg9 harg9) K := by
  simp only [cc3__pool_fused_kernel_eq_skeleton]; unfold cc3__pool_fused_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2; obtain rfl := harg4.eq_unread hf3
  obtain rfl := harg9.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact HS
  ipureintro
  rw [View.read_writes_eq_canon _ _ _ (fun y => ⟨_, List.mem_singleton_self _, View.mem_set_unit_zero (S := S64x128) off2_zero inb_S64x128_S64x128_0_0 y⟩),
    View.canon_unit_zero off2_zero]
  simp only [View.readAt_eq_ld, harg1.read_unread, harg2.read_unread, harg3.read_unread, harg4.read_unread, harg9.read_unread,
    View.ld_unit_zero (S := S5000x128) off2_zero, View.ld_unit_zero (S := S5000x1) off2_zero, View.ld_unit_zero (S := S64x128) off2_zero]

set_option maxHeartbeats 1000000 in
/-- The FIRST point (the reset taken, the output's conditional not): the scratch, found at anything, is zeroed and
    then left at the update of the zero block by the four moving blocks, which stay as they were. -/
theorem run3_first (c : Dev nD) (i : grid3.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S5000x1 .i32) (harg4 : arg4.IsWhole)
    (arg5 : Memref sig .tc .vmem S64x1 .f32) (harg5 : arg5.IsWhole) (arg6 : Memref sig .tc .vmem S128x64 .f32) (harg6 : arg6.IsWhole)
    (arg7 : Memref sig .tc .vmem S64 .f32) (harg7 : arg7.IsWhole) (arg8 : Memref sig .tc .vmem S64x64 .f32) (harg8 : arg8.IsWhole)
    (arg9 : Memref sig .tc .vmem S64x128 .f32) (harg9 : arg9.IsWhole)
    (hc0 : cond3_0 i) (hc1 : ¬cond3_1 i)
    (x0 : Vec F S5000x128 .f32) (x1 : Vec F S5000x128 .f32) (x2 : Vec F S5000x1 .f32) (x3 : Vec F S5000x1 .i32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg9 fullShare (k3_pay2 x0 x1 x2 x3 k3_pay1)) -∗ K ⟨⟩))
      ⊢ wp frame (wpE (defs₀ (F := F)) Variants.none c none) E (cc3__pool_fused_kernel i arg1 harg1 arg2 harg2 arg3 harg3 arg4 harg4 arg5 harg5 arg6 harg6 arg7 harg7 arg8 harg8 arg9 harg9) K := by
  simp only [cc3__pool_fused_kernel_eq_skeleton]; unfold cc3__pool_fused_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact HS
  ipureintro
  sl_unfold_words
  rw [View.read_writes_eq_canon _ _ _ (fun y => ⟨_, List.mem_cons_self, View.mem_set_unit_zero (S := S64x128) off2_zero inb_S64x128_S64x128_0_0 y⟩),
    View.canon_cons_unit_zero (S := S64x128) off2_zero]
  simp only [View.readAt_eq_ld, harg1.read_unread, harg2.read_unread, harg3.read_unread, harg4.read_unread,
    View.ld_unit_zero (S := S5000x128) off2_zero, View.ld_unit_zero (S := S5000x1) off2_zero,
    View.readCov_unit_zero (S := S64x128) _ off2_zero]

set_option maxHeartbeats 4000000 in
/-- The LAST point (the reset not taken, the output's conditional taken): the scratch, found at `xs`, is left at its
    update `a` by the four moving blocks, and the output's buffer, found at anything, at the projection of `a` by the
    three constant inputs; every input stays as it was. -/
theorem run3_last (c : Dev nD) (i : grid3.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S5000x1 .i32) (harg4 : arg4.IsWhole)
    (arg5 : Memref sig .tc .vmem S64x1 .f32) (harg5 : arg5.IsWhole) (arg6 : Memref sig .tc .vmem S128x64 .f32) (harg6 : arg6.IsWhole)
    (arg7 : Memref sig .tc .vmem S64 .f32) (harg7 : arg7.IsWhole) (arg8 : Memref sig .tc .vmem S64x64 .f32) (harg8 : arg8.IsWhole)
    (arg9 : Memref sig .tc .vmem S64x128 .f32) (harg9 : arg9.IsWhole)
    (hc0 : ¬cond3_0 i) (hc1 : cond3_1 i)
    (x0 : Vec F S5000x128 .f32) (x1 : Vec F S5000x128 .f32) (x2 : Vec F S5000x1 .f32) (x3 : Vec F S5000x1 .i32)
    (x4 : Vec F S64x1 .f32) (x5 : Vec F S128x64 .f32) (x6 : Vec F S64 .f32) (xs : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6
        ∗ (∃ d, owns (c : Thread nD τ) arg8 fullShare d)
        ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6
            ∗ owns (c : Thread nD τ) arg8 fullShare (k3_pay3 (k3_pay2 x0 x1 x2 x3 xs) x4 x5 x6)
            ∗ owns (c : Thread nD τ) arg9 fullShare (k3_pay2 x0 x1 x2 x3 xs)) -∗ K ⟨⟩))
      ⊢ wp frame (wpE (defs₀ (F := F)) Variants.none c none) E (cc3__pool_fused_kernel i arg1 harg1 arg2 harg2 arg3 harg3 arg4 harg4 arg5 harg5 arg6 harg6 arg7 harg7 arg8 harg8 arg9 harg9) K := by
  simp only [cc3__pool_fused_kernel_eq_skeleton]; unfold cc3__pool_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  obtain rfl := harg9.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    rw [View.read_writes_eq_canon _ _ _ (fun y => ⟨_, List.mem_singleton_self _, View.mem_set_unit_zero (S := S64x64) off2_zero inb_S64x64_S64x64_0_0 y⟩),
      View.canon_unit_zero (S := S64x64) off2_zero]
    simp only [View.readAt_eq_ld, harg1.read_unread, harg2.read_unread, harg3.read_unread, harg4.read_unread,
      harg5.read_unread, harg6.read_unread, harg7.read_unread, harg9.read_unread,
      View.ld_unit_zero (S := S5000x128) off2_zero, View.ld_unit_zero (S := S5000x1) off2_zero, View.ld_unit_zero (S := S64x128) off2_zero,
      View.ld_unit_zero (S := S64x1) off2_zero, View.ld_unit_zero (S := S128x64) off2_zero, View.ld_unit_zero (S := S64) off1_zero,
      View.readCov_unit_zero (S := S64x128) _ off2_zero]
  iexists _; isplitr
  swap; · iexact HS
  ipureintro
  sl_unfold_words
  rw [View.read_writes_eq_canon _ _ _ (fun y => ⟨_, List.mem_singleton_self _, View.mem_set_unit_zero (S := S64x128) off2_zero inb_S64x128_S64x128_0_0 y⟩),
    View.canon_unit_zero (S := S64x128) off2_zero]
  simp only [View.readAt_eq_ld, harg1.read_unread, harg2.read_unread, harg3.read_unread, harg4.read_unread, harg9.read_unread,
    View.ld_unit_zero (S := S5000x128) off2_zero, View.ld_unit_zero (S := S5000x1) off2_zero, View.ld_unit_zero (S := S64x128) off2_zero]

/-! ## What the body finds in the inputs' buffers -/

/-- Each input's current staging buffer holds its block at every point, fetched there or not: unfetched, the block
    index has not moved, and the body left the block in place. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3]; try rfl) t d).trans
    (by unfold Dat.fetched Dat.blockOf iblk3; rw [A_eq3]; try rfl)

/-! ## Where the windows are idle -/

/-- The inputs are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl
theorem liveAt3_6 : ∀ t : Fin cfg3.N, cfg3.idle 6 (grid3.coords t) = false := fun _ => rfl
/-- Where the output's conditional is not taken the output window is idle: the body stores nothing into it, -/
theorem idleAt3_7 : ∀ t : Fin cfg3.N, ¬cond3_1 (grid3.coords t) → cfg3.idle 7 (grid3.coords t) = true := by decide +kernel
/-- and the pipeline does not write its block back there. -/
theorem noFlush3_7 : ∀ t : Fin cfg3.N, ¬cond3_1 (grid3.coords t) → (cfg3.win 7).flush t = false := by decide +kernel
/-- Where it is taken the window is live. -/
theorem liveAt3_7 : ∀ t : Fin cfg3.N, cond3_1 (grid3.coords t) → cfg3.idle 7 (grid3.coords t) = false := by decide +kernel

/-! ## The staging memrefs at a point, and the class invariant opened at the scratch -/

/-- Each window's current staging memref at point `t`, spelled as the pipeline passes it, and its wholeness. -/
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S5000x1 .i32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S64x1 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S128x64 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S64 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S64x64 .f32 := win3_7.stage (cfg3.slots t 7)
abbrev hs3_7 (t : Fin cfg3.N) : (ms3_7 t).IsWhole := hstage3_7 ((cfg3.slots t 7).cast nbuf3_7)

/-- The class invariant with the scratch accumulator as a memref owned at some contents, every other scoped buffer
    that is no staging buffer unopened. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t
    ∗ (dat3 V c).leavesExact 4 t ∗ (dat3 V c).leavesExact 5 t ∗ (dat3 V c).leavesExact 6 t ∗ (dat3 V c).leavesExact 7 t)

set_option maxHeartbeats 4800000 in
/-- The body at any point. The inputs' memrefs hold their blocks; the closed forms of the two conditions say which of the
    three cases the point is in, and that case's run applies. The invariant hands the body the scratch at what the point
    before left (at anything at the first point) and takes it back at this point's accumulator; the output's buffer is
    handed back as found except at the last point, where it is left at the projection of the accumulator; the rest of
    the invariant and what the core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  rw [show (dat3 V c).leavesExact 6 t = owns (c : Thread nD τ) (ms3_6 t) fullShare ((dat3 V c).after 6 t) from by
    unfold Dat.leavesExact; rw [liveAt3_6 t], after3_6]
  have hN : t.val < 20 := lt_of_lt_of_eq t.isLt (show cfg3.N = 20 from N_3)
  by_cases h0 : t.val % 20 = 0
  · by_cases h1 : t.val % 20 = 19
    · exfalso; omega
    · have hz : t.val = 0 := by omega
      rw [Dat.leavesExact_idle (dat3 V c) 7 t (idleAt3_7 t (fun h => h1 ((hcond3_1 t).mp h))) (noFlush3_7 t (fun h => h1 ((hcond3_1 t).mp h)))]
      rw [acc3_first V c t hz]
      rw [PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run3_first c (grid3.coords t) _ _ _ _ _ _ _ _ _ _ _ _ _ _ _ _ _ _ ((hcond3_0 t).mpr h0) (fun h => h1 ((hcond3_1 t).mp h))
        (iblk3 V c 0 t) (iblk3 V c 1 t) (iblk3 V c 2 t) (iblk3 V c 3 t) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := by omega
    by_cases h1 : t.val % 20 = 19
    · rw [show (dat3 V c).leavesExact 7 t = owns (c : Thread nD τ) (ms3_7 t) fullShare ((dat3 V c).after 7 t) from by
        unfold Dat.leavesExact; rw [liveAt3_7 t ((hcond3_1 t).mpr h1)], after3_7]
      rw [acc3_pos V c t hz]
      rw [PhiS3_castSucc V c t, PhiS3_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run3_last c (grid3.coords t) _ _ _ _ _ _ _ _ _ _ _ _ _ _ _ _ _ _ (fun h => h0 ((hcond3_0 t).mp h)) ((hcond3_1 t).mpr h1)
        (iblk3 V c 0 t) (iblk3 V c 1 t) (iblk3 V c 2 t) (iblk3 V c 3 t) (iblk3 V c 4 t) (iblk3 V c 5 t) (iblk3 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat3 V c) 7 t (idleAt3_7 t (fun h => h1 ((hcond3_1 t).mp h))) (noFlush3_7 t (fun h => h1 ((hcond3_1 t).mp h)))]
      rw [acc3_pos V c t hz]
      rw [PhiS3_castSucc V c t, PhiS3_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run3_mid c (grid3.coords t) _ _ _ _ _ _ _ _ _ _ _ _ _ _ _ _ _ _ (fun h => h0 ((hcond3_0 t).mp h)) (fun h => h1 ((hcond3_1 t).mp h))
        (iblk3 V c 0 t) (iblk3 V c 1 t) (iblk3 V c 2 t) (iblk3 V c 3 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨HS, HR, Hg⟩
  isplitl [HS HR]
  · isplitl [HS]
    · iexists _; iexact HS
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 20 := N_3; omega)

end Cert.KernelIdeal.Hand

end
-- ==== Proof.KI.Run.lean ====
/-
  The run of the main program: its eight segments (four host stretches, four pallas calls) composed by the launch theorem for
  programs of several regions, from the launch memory to the return; the frame (the argument arrays end as launched) read off it.
-/
import proofs.«429065_j59115929862863_2_alg».proof.Proof.Gen.KernelIdeal.Launch
import proofs.«429065_j59115929862863_2_alg».proof.Proof.Gen.KernelIdeal.Skeleton
import proofs.«429065_j59115929862863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«429065_j59115929862863_2_alg».proof.Proof.KI.Fold
import proofs.«429065_j59115929862863_2_alg».proof.Proof.KI.R3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- No pallas call has a prefetched table. -/
abbrev admH : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) admH p) c
  | ⟨0, _⟩ => fun c => dat0 (E1 m) c
  | ⟨1, _⟩ => fun c => dat1 (E3 m) c
  | ⟨2, _⟩ => fun c => dat2 (E5 m) c
  | ⟨3, _⟩ => fun c => dat3 (E7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register somewhere. -/
abbrev Tₙ (c : Dev nD) : sProp 𝕄 := iprop(StableHlo.held (c : Thread nD τ) (Pipeline.ucRefs τ sig) (W8 m c) ∗ ∃ r, prngReg c r)

/-! ## The pallas calls as segments -/

set_option backward.isDefEq.respectTransparency.types false in
/-- Pallas call 0 as a segment of the main program: entered with every unscoped buffer at `W1`, left with them at
    `W2`. Its arrays are split out of the unscoped buffers at entry and put back at their final contents at exit; the
    generator register goes into the region's invariant and comes back; nothing is owed. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment of the main program: entered with every unscoped buffer at `W3`, left with them at
    `W4`. Its arrays are split out of the unscoped buffers at entry and put back at their final contents at exit; the
    generator register goes into the region's invariant and comes back; nothing is owed. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 as a segment of the main program: entered with every unscoped buffer at `W5`, left with them at
    `W6`. Its arrays are split out of the unscoped buffers at entry and put back at their final contents at exit; the
    generator register goes into the region's invariant and comes back; nothing is owed. -/
def reg2 : Pipeline.RegionSeg (pcfgs (F := F)) admH (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 3 as a segment of the main program: entered with every unscoped buffer at `W7`, left with them at
    `W8`. Its arrays are split out of the unscoped buffers at entry and put back at their final contents at exit; the
    generator register goes into the region's invariant and comes back; nothing is owed. -/
def reg3 : Pipeline.RegionSeg (pcfgs (F := F)) admH (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) admH (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (E7 m) c).Φ 0 from rfl]
    have h := hin3 (E7 m) c
    unfold Pipeline.ΦA at h
    iintro ⟨Hp, -, Hr⟩
    iapply h
    isplitl [Hr]; · iexact Hr
    iexact Hp
  hout c := by
    rw [Pipeline.ownSems0_none, show (pdats m 3 c).Φ (Fin.last _) = (dat3 (E7 m) c).Φ (Fin.last _) from rfl]
    have h := hout3 (E7 m) c
    unfold Pipeline.ΦA at h
    iintro HPhi
    ihave HA := h $$ HPhi
    icases HA with ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main program as segments, and the launch -/

/-- The main program's 8 segments in order. -/
abbrev segsH : List (Pipeline.Seg (pcfgs (F := F)) admH (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- The main program IS the run of the segments. -/
theorem main_run (c : Dev nD) : main (F := F) c = Pipeline.Seg.run (segsH m) := (main_chain c).trans (by chain_rfl)

variable (ρ : Dev nD → PrngReg)

set_option backward.isDefEq.respectTransparency.types false in
/-- THE RUN. From any memory with zero counters every weakly fair execution of the main program terminates, nothing faulting,
    and every final state has every unscoped buffer at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) admH (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- THE FRAME at any float instance: every weakly fair execution terminates, nothing faulting, and the argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c),
     (h c _ (mem_uc main_arg9 (by decide))).trans (W8_main_arg9 m c),
     (h c _ (mem_uc main_arg10 (by decide))).trans (W8_main_arg10 m c)⟩)
    (run_all m ρ)

end Cert.KernelIdeal.Hand

end
-- ==== Proof.Spec.lean ====
/-
  The graph-convolution network of this certificate, stage by stage, as functions of whole arrays.

  A node feature matrix `x : [N, 128]` is pushed through three layers.  A layer multiplies by a weight matrix and adds a bias
  (`layer`), sends every node's row along each edge `src → dst` scaled by the edge's weight `dinv src * dinv dst` and adds up what
  arrives at each node (`agg`: a gather by `src`, a product, a scatter-add by `dst`), and adds the node's own row scaled by
  `dinv * dinv` (`combine`); the first two layers end in a rectifier (`relu`).  Here `dinv n = (1 + number of edges into n)^(-1/2)`.
  The rows of the last layer are then summed per graph (`batch` names each node's graph; a scatter-add), divided by the size of
  the graph or by one if it is empty, multiplied by a last weight matrix and a last bias added (`tail`).

  The number of edges into a node is counted two ways: by adding float ones (`degF`, `countsF`) and by adding integer ones
  and converting the total (`degI`, `countsI`).  Negative indices are wrapped the NumPy way before a gather (`wrap`).
  Every function is spelt with the host operations and dimension numbers of the reference program, generic in the float
  instance; `out` composes them into the reference's result.
-/
import proofs.«429065_j59115929862863_2_alg».proof.Proof.Gen.ReferenceIdeal

noncomputable section

namespace Cert.Spec

open Cert.ReferenceIdeal Cert.ReferenceIdeal.Gen Idealize.ShloMosaic

variable {F : FTy → Type} [FloatOps F]

/-- The sources and the destinations of the edges: the two rows of the edge table. -/
def srcOf (ei : IVec S2x1600000 32) : IVec S1600000 32 :=
  shapeCast _ (extractStridedSlice S1x1600000 ![0, 0] ei slices_S2x1600000_S1x1600000_0_0) shapeCasts_S1x1600000_S1600000
def dstOf (ei : IVec S2x1600000 32) : IVec S1600000 32 :=
  shapeCast _ (extractStridedSlice S1x1600000 ![1, 0] ei slices_S2x1600000_S1x1600000_1_0) shapeCasts_S1x1600000_S1600000

/-- A negative node index counts from the end. -/
def wrap (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- A vector of edge indices as a column. -/
def colE (s : IVec S1600000 32) : IVec S1600000x1 32 := broadcastInDim S1600000x1 ![0] bcast_S1600000_S1600000x1_0 s
/-- A vector of node indices as a column. -/
def colN (s : IVec S100000 32) : IVec S100000x1 32 := broadcastInDim S100000x1 ![0] bcast_S100000_S100000x1_0 s
/-- A per-node float as a column. -/
def colNf (s : FVec F S100000 .f32) : FVec F S100000x1 .f32 := broadcastInDim S100000x1 ![0] bcast_S100000_S100000x1_0 s
/-- A per-graph float as a column. -/
def colGf (s : FVec F S64 .f32) : FVec F S64x1 .f32 := broadcastInDim S64x1 ![0] bcast_S64_S64x1_0 s

/-- The number of edges into each node, counted in floats. -/
def degF (dst : IVec S1600000 32) : FVec F S100000 .f32 :=
  Host.scatterAdd scatter_S100000_S1600000x1_S1600000_n_0_0_1 (broadcastInDim S100000 ![] bcast_S_S100000 (constant S_ .f32 0x00000000#32))
    (colE dst) (broadcastInDim S1600000 ![] bcast_S_S1600000 (constant S_ .f32 0x3F800000#32))
/-- The same number counted in integers, then converted. -/
def degI (dst : IVec S1600000 32) : FVec F S100000 .f32 :=
  sitofp .f32 (Host.scatter scatter_S100000_S1600000x1_S1600000_n_0_0_1 IntOp.addi (broadcastInDim S100000 ![] bcast_S_S100000 (constantI S_ 32 0#32))
    (colE dst) (broadcastInDim S1600000 ![] bcast_S_S1600000 (constantI S_ 32 1#32)))

/-- `(1 + degree)^(-1/2)`. -/
def dinv (cnt : FVec F S100000 .f32) : FVec F S100000 .f32 :=
  Host.rsqrt (addf cnt (broadcastInDim S100000 ![] bcast_S_S100000 (constant S_ .f32 0x3F800000#32)))

/-- An edge's weight: the product of its two ends' `dinv`. -/
def normE (di : FVec F S100000 .f32) (src dst : IVec S1600000 32) : FVec F S1600000 .f32 :=
  mulf (Host.gather gather_S100000_S1600000x1_S1600000_n_0_n_n_0_1_1 di (colE (wrap src)))
    (Host.gather gather_S100000_S1600000x1_S1600000_n_0_n_n_0_1_1 di (colE (wrap dst)))

/-- A node's own weight. -/
def selfN (di : FVec F S100000 .f32) : FVec F S100000 .f32 := mulf di di

/-- A dense layer: `x W + b`. -/
def layer (x : FVec F S100000x128 .f32) (W : FVec F S128x128 .f32) (b : FVec F S128 .f32) : FVec F S100000x128 .f32 :=
  addf (Host.dotGeneral dot_S100000x128_S128x128_S100000x128_1_0_0_1_n_n none x W)
    (broadcastInDim S100000x128 ![0, 1] bcast_S1x128_S100000x128_0_1 (broadcastInDim S1x128 ![1] bcast_S128_S1x128_1 b))

/-- What arrives at each node along the edges: rows gathered by source, scaled by the edge weight, summed by destination. -/
def agg (h : FVec F S100000x128 .f32) (src dst : IVec S1600000 32) (nrm : FVec F S1600000 .f32) : FVec F S100000x128 .f32 :=
  Host.scatterAdd scatter_S100000x128_S1600000x1_S1600000x128_1_0_0_1
    (broadcastInDim S100000x128 ![] bcast_S_S100000x128 (constant S_ .f32 0x00000000#32)) (colE dst)
    (mulf (Host.gather gather_S100000x128_S1600000x1_S1600000x128_1_0_n_n_0_1_1128 h (colE (wrap src)))
      (broadcastInDim S1600000x128 ![0, 1] bcast_S1600000x1_S1600000x128_0_1 (broadcastInDim S1600000x1 ![0] bcast_S1600000_S1600000x1_0 nrm)))

/-- The aggregate plus the node's own row scaled by its own weight, the weight given as a column. -/
def combine2 (ag h : FVec F S100000x128 .f32) (sn2 : FVec F S100000x1 .f32) : FVec F S100000x128 .f32 :=
  addf ag (mulf h (broadcastInDim S100000x128 ![0, 1] bcast_S100000x1_S100000x128_0_1 sn2))
def combine (ag h : FVec F S100000x128 .f32) (sn : FVec F S100000 .f32) : FVec F S100000x128 .f32 := combine2 ag h (colNf sn)

/-- The rectifier. -/
def relu (x : FVec F S100000x128 .f32) : FVec F S100000x128 .f32 :=
  maximumf x (broadcastInDim S100000x128 ![] bcast_S_S100000x128 (constant S_ .f32 0x00000000#32))

/-- The number of nodes of each graph, counted in floats, and in integers then converted. -/
def countsF (batch : IVec S100000 32) : FVec F S64 .f32 :=
  Host.scatterAdd scatter_S64_S100000x1_S100000_n_0_0_1 (broadcastInDim S64 ![] bcast_S_S64 (constant S_ .f32 0x00000000#32))
    (colN batch) (broadcastInDim S100000 ![] bcast_S_S100000 (constant S_ .f32 0x3F800000#32))
def countsI (batch : IVec S100000 32) : FVec F S64 .f32 :=
  sitofp .f32 (Host.scatter scatter_S64_S100000x1_S100000_n_0_0_1 IntOp.addi (broadcastInDim S64 ![] bcast_S_S64 (constantI S_ 32 0#32))
    (colN batch) (broadcastInDim S100000 ![] bcast_S_S100000 (constantI S_ 32 1#32)))

/-- The rows summed per graph. -/
def pool (hfin : FVec F S100000x128 .f32) (batch2 : IVec S100000x1 32) : FVec F S64x128 .f32 :=
  Host.scatterAdd scatter_S64x128_S100000x1_S100000x128_1_0_0_1 (broadcastInDim S64x128 ![] bcast_S_S64x128 (constant S_ .f32 0x00000000#32)) batch2 hfin

/-- The mean over each graph (a graph's size, or one for an empty graph, given as a column of divisors), then the last
    linear map. -/
def head (sums : FVec F S64x128 .f32) (den2 : FVec F S64x1 .f32) (Wp : FVec F S128x64 .f32) (bp : FVec F S64 .f32) : FVec F S64x64 .f32 :=
  addf (Host.dotGeneral dot_S64x128_S128x64_S64x64_1_0_0_1_n_n none
      (Host.divf sums (broadcastInDim S64x128 ![0, 1] bcast_S64x1_S64x128_0_1 den2)) Wp)
    (broadcastInDim S64x64 ![0, 1] bcast_S1x64_S64x64_0_1 (broadcastInDim S1x64 ![1] bcast_S64_S1x64_1 bp))

/-- A graph's size, at least one. -/
def den (cnt : FVec F S64 .f32) : FVec F S64 .f32 := maximumf cnt (broadcastInDim S64 ![] bcast_S_S64 (constant S_ .f32 0x3F800000#32))

/-- The same divisor formed on a column of sizes. -/
def den2 (cnt2 : FVec F S64x1 .f32) : FVec F S64x1 .f32 := maximumf cnt2 (broadcast S64x1 (Scalar.ofBits .f32 0x3F800000#32))

/-- Forming the divisor and laying it out as a column commute: both are pointwise. -/
theorem den2_col (cnt : FVec F S64 .f32) : den2 (colGf cnt) = colGf (den cnt) := rfl

/-- The network from the degrees on: `cnt` is the number of edges into each node, `gcnt` the number of nodes of each graph. -/
def net (cnt : FVec F S100000 .f32) (gcnt : FVec F S64 .f32) (x : FVec F S100000x128 .f32) (ei : IVec S2x1600000 32) (batch : IVec S100000 32)
    (W1 : FVec F S128x128 .f32) (b1 : FVec F S128 .f32) (W2 : FVec F S128x128 .f32) (b2 : FVec F S128 .f32)
    (W3 : FVec F S128x128 .f32) (b3 : FVec F S128 .f32) (Wp : FVec F S128x64 .f32) (bp : FVec F S64 .f32) : FVec F S64x64 .f32 :=
  head (pool (combine (agg (layer (relu (combine (agg (layer (relu (combine (agg (layer x W1 b1) (srcOf ei) (dstOf ei) (normE (dinv cnt) (srcOf ei) (dstOf ei))) (layer x W1 b1) (selfN (dinv cnt)))) W2 b2) (srcOf ei) (dstOf ei) (normE (dinv cnt) (srcOf ei) (dstOf ei))) (layer (relu (combine (agg (layer x W1 b1) (srcOf ei) (dstOf ei) (normE (dinv cnt) (srcOf ei) (dstOf ei))) (layer x W1 b1) (selfN (dinv cnt)))) W2 b2) (selfN (dinv cnt)))) W3 b3) (srcOf ei) (dstOf ei) (normE (dinv cnt) (srcOf ei) (dstOf ei))) (layer (relu (combine (agg (layer (relu (combine (agg (layer x W1 b1) (srcOf ei) (dstOf ei) (normE (dinv cnt) (srcOf ei) (dstOf ei))) (layer x W1 b1) (selfN (dinv cnt)))) W2 b2) (srcOf ei) (dstOf ei) (normE (dinv cnt) (srcOf ei) (dstOf ei))) (layer (relu (combine (agg (layer x W1 b1) (srcOf ei) (dstOf ei) (normE (dinv cnt) (srcOf ei) (dstOf ei))) (layer x W1 b1) (selfN (dinv cnt)))) W2 b2) (selfN (dinv cnt)))) W3 b3) (selfN (dinv cnt))) (colN batch))
    (colGf (den gcnt)) Wp bp

end Cert.Spec

end
-- ==== Proof.KV.HostK.lean ====
/-
  What the host stretches of the idealized kernel program compute, in the words of the specification (`Spec.lean`): edge
  sources and destinations, edge weights and self weights from the in-degrees, graph sizes, and the three aggregations; and
  which buffers each later step leaves alone.
-/
import proofs.«429065_j59115929862863_2_alg».proof.Proof.Gen.KernelIdeal.Launch
import proofs.«429065_j59115929862863_2_alg».proof.Proof.Gen.KernelIdeal.Skeleton
import proofs.«429065_j59115929862863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run
import proofs.«429065_j59115929862863_2_alg».proof.Proof.KI.Fold
import proofs.«429065_j59115929862863_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the host stretches compute, in the words of the specification

Each host stretch's results, read off the fold of the buffer contents, are the specification's functions (`Spec.lean`) of what
the stretch read; a buffer no later step writes keeps its value. Generic in the float instance. -/

variable (m : (ℓ : Loc nD τ sig) → Buf (Elt F) ℓ) (c : Dev nD)

/-- The edge sources and destinations. -/
theorem W1_v1 : W1 m c (Proc.devRef .tc main_v1) = Cert.Spec.srcOf (m ((c : Thread nD τ).loc main_arg1)) := by
  show StableHlo.after hostOps0 (W0 m c) (Proc.devRef .tc main_v1) = _
  after_results
  rfl
theorem W1_v3 : W1 m c (Proc.devRef .tc main_v3) = Cert.Spec.dstOf (m ((c : Thread nD τ).loc main_arg1)) := by
  show StableHlo.after hostOps0 (W0 m c) (Proc.devRef .tc main_v3) = _
  after_results
  rfl
/-- `dinv` from the integer count of the in-degrees. -/
abbrev dinvK : FVec F Cert.ReferenceIdeal.S100000 .f32 := Cert.Spec.dinv (Cert.Spec.degI (Cert.Spec.dstOf (m ((c : Thread nD τ).loc main_arg1))))
set_option maxHeartbeats 2000000 in
/-- The edge weights. -/
theorem W1_v26 : W1 m c (Proc.devRef .tc main_v26)
    = Cert.Spec.normE (dinvK m c) (Cert.Spec.srcOf (m ((c : Thread nD τ).loc main_arg1))) (Cert.Spec.dstOf (m ((c : Thread nD τ).loc main_arg1))) := by
  show StableHlo.after hostOps0 (W0 m c) (Proc.devRef .tc main_v26) = _
  after_results_simp
  rfl
/-- The nodes' own weights, as a column. -/
theorem W1_v28 : W1 m c (Proc.devRef .tc main_v28) = Cert.Spec.colNf (Cert.Spec.selfN (dinvK m c)) := by
  show StableHlo.after hostOps0 (W0 m c) (Proc.devRef .tc main_v28) = _
  after_results
  rfl
/-- The graph sizes (counted in integers), as a column; the graph ids as a column. -/
theorem W1_v34 : W1 m c (Proc.devRef .tc main_v34) = Cert.Spec.colGf (Cert.Spec.countsI (m ((c : Thread nD τ).loc main_arg2))) := by
  show StableHlo.after hostOps0 (W0 m c) (Proc.devRef .tc main_v34) = _
  after_results
  rfl
theorem W1_v35 : W1 m c (Proc.devRef .tc main_v35) = Cert.Spec.colN (m ((c : Thread nD τ).loc main_arg2)) := by
  show StableHlo.after hostOps0 (W0 m c) (Proc.devRef .tc main_v35) = _
  after_results
  rfl

set_option maxHeartbeats 4000000 in
/-- The three aggregations: rows gathered by source, scaled, summed by destination. -/
theorem W3_v49 : W3 m c (Proc.devRef .tc main_v49)
    = Cert.Spec.agg (W2 m c (Proc.devRef .tc main_v36)) (W2 m c (Proc.devRef .tc main_v1)) (W2 m c (Proc.devRef .tc main_v3)) (W2 m c (Proc.devRef .tc main_v26)) := by
  show StableHlo.after hostOps1 (W2 m c) (Proc.devRef .tc main_v49) = _
  after_results_simp
  rfl
set_option maxHeartbeats 4000000 in
theorem W5_v63 : W5 m c (Proc.devRef .tc main_v63)
    = Cert.Spec.agg (W4 m c (Proc.devRef .tc main_v50)) (W4 m c (Proc.devRef .tc main_v1)) (W4 m c (Proc.devRef .tc main_v3)) (W4 m c (Proc.devRef .tc main_v26)) := by
  show StableHlo.after hostOps2 (W4 m c) (Proc.devRef .tc main_v63) = _
  after_results_simp
  rfl
set_option maxHeartbeats 4000000 in
theorem W7_v77 : W7 m c (Proc.devRef .tc main_v77)
    = Cert.Spec.agg (W6 m c (Proc.devRef .tc main_v64)) (W6 m c (Proc.devRef .tc main_v1)) (W6 m c (Proc.devRef .tc main_v3)) (W6 m c (Proc.devRef .tc main_v26)) := by
  show StableHlo.after hostOps3 (W6 m c) (Proc.devRef .tc main_v77) = _
  after_results_simp
  rfl

/-! ## Values carried forward unchanged -/

theorem W2_v1 : W2 m c (Proc.devRef .tc main_v1) = W1 m c (Proc.devRef .tc main_v1) :=
  (W2_keep m c main_v1 (by decide))
theorem W4_v1 : W4 m c (Proc.devRef .tc main_v1) = W1 m c (Proc.devRef .tc main_v1) :=
  (W4_keep m c main_v1 (by decide)).trans <| (W3_keep m c main_v1 (by decide)).trans <| (W2_keep m c main_v1 (by decide))
theorem W6_v1 : W6 m c (Proc.devRef .tc main_v1) = W1 m c (Proc.devRef .tc main_v1) :=
  (W6_keep m c main_v1 (by decide)).trans <| (W5_keep m c main_v1 (by decide)).trans <| (W4_keep m c main_v1 (by decide)).trans <| (W3_keep m c main_v1 (by decide)).trans <| (W2_keep m c main_v1 (by decide))
theorem W7_v1 : W7 m c (Proc.devRef .tc main_v1) = W1 m c (Proc.devRef .tc main_v1) :=
  (W7_keep m c main_v1 (by decide)).trans <| (W6_keep m c main_v1 (by decide)).trans <| (W5_keep m c main_v1 (by decide)).trans <| (W4_keep m c main_v1 (by decide)).trans <| (W3_keep m c main_v1 (by decide)).trans <| (W2_keep m c main_v1 (by decide))
theorem W2_v3 : W2 m c (Proc.devRef .tc main_v3) = W1 m c (Proc.devRef .tc main_v3) :=
  (W2_keep m c main_v3 (by decide))
theorem W4_v3 : W4 m c (Proc.devRef .tc main_v3) = W1 m c (Proc.devRef .tc main_v3) :=
  (W4_keep m c main_v3 (by decide)).trans <| (W3_keep m c main_v3 (by decide)).trans <| (W2_keep m c main_v3 (by decide))
theorem W6_v3 : W6 m c (Proc.devRef .tc main_v3) = W1 m c (Proc.devRef .tc main_v3) :=
  (W6_keep m c main_v3 (by decide)).trans <| (W5_keep m c main_v3 (by decide)).trans <| (W4_keep m c main_v3 (by decide)).trans <| (W3_keep m c main_v3 (by decide)).trans <| (W2_keep m c main_v3 (by decide))
theorem W7_v3 : W7 m c (Proc.devRef .tc main_v3) = W1 m c (Proc.devRef .tc main_v3) :=
  (W7_keep m c main_v3 (by decide)).trans <| (W6_keep m c main_v3 (by decide)).trans <| (W5_keep m c main_v3 (by decide)).trans <| (W4_keep m c main_v3 (by decide)).trans <| (W3_keep m c main_v3 (by decide)).trans <| (W2_keep m c main_v3 (by decide))
theorem W2_v26 : W2 m c (Proc.devRef .tc main_v26) = W1 m c (Proc.devRef .tc main_v26) :=
  (W2_keep m c main_v26 (by decide))
theorem W4_v26 : W4 m c (Proc.devRef .tc main_v26) = W1 m c (Proc.devRef .tc main_v26) :=
  (W4_keep m c main_v26 (by decide)).trans <| (W3_keep m c main_v26 (by decide)).trans <| (W2_keep m c main_v26 (by decide))
theorem W6_v26 : W6 m c (Proc.devRef .tc main_v26) = W1 m c (Proc.devRef .tc main_v26) :=
  (W6_keep m c main_v26 (by decide)).trans <| (W5_keep m c main_v26 (by decide)).trans <| (W4_keep m c main_v26 (by decide)).trans <| (W3_keep m c main_v26 (by decide)).trans <| (W2_keep m c main_v26 (by decide))
theorem W7_v26 : W7 m c (Proc.devRef .tc main_v26) = W1 m c (Proc.devRef .tc main_v26) :=
  (W7_keep m c main_v26 (by decide)).trans <| (W6_keep m c main_v26 (by decide)).trans <| (W5_keep m c main_v26 (by decide)).trans <| (W4_keep m c main_v26 (by decide)).trans <| (W3_keep m c main_v26 (by decide)).trans <| (W2_keep m c main_v26 (by decide))
theorem W2_v28 : W2 m c (Proc.devRef .tc main_v28) = W1 m c (Proc.devRef .tc main_v28) :=
  (W2_keep m c main_v28 (by decide))
theorem W4_v28 : W4 m c (Proc.devRef .tc main_v28) = W1 m c (Proc.devRef .tc main_v28) :=
  (W4_keep m c main_v28 (by decide)).trans <| (W3_keep m c main_v28 (by decide)).trans <| (W2_keep m c main_v28 (by decide))
theorem W6_v28 : W6 m c (Proc.devRef .tc main_v28) = W1 m c (Proc.devRef .tc main_v28) :=
  (W6_keep m c main_v28 (by decide)).trans <| (W5_keep m c main_v28 (by decide)).trans <| (W4_keep m c main_v28 (by decide)).trans <| (W3_keep m c main_v28 (by decide)).trans <| (W2_keep m c main_v28 (by decide))
theorem W7_v28 : W7 m c (Proc.devRef .tc main_v28) = W1 m c (Proc.devRef .tc main_v28) :=
  (W7_keep m c main_v28 (by decide)).trans <| (W6_keep m c main_v28 (by decide)).trans <| (W5_keep m c main_v28 (by decide)).trans <| (W4_keep m c main_v28 (by decide)).trans <| (W3_keep m c main_v28 (by decide)).trans <| (W2_keep m c main_v28 (by decide))
theorem W7_v34 : W7 m c (Proc.devRef .tc main_v34) = W1 m c (Proc.devRef .tc main_v34) :=
  (W7_keep m c main_v34 (by decide)).trans <| (W6_keep m c main_v34 (by decide)).trans <| (W5_keep m c main_v34 (by decide)).trans <| (W4_keep m c main_v34 (by decide)).trans <| (W3_keep m c main_v34 (by decide)).trans <| (W2_keep m c main_v34 (by decide))
theorem W7_v35 : W7 m c (Proc.devRef .tc main_v35) = W1 m c (Proc.devRef .tc main_v35) :=
  (W7_keep m c main_v35 (by decide)).trans <| (W6_keep m c main_v35 (by decide)).trans <| (W5_keep m c main_v35 (by decide)).trans <| (W4_keep m c main_v35 (by decide)).trans <| (W3_keep m c main_v35 (by decide)).trans <| (W2_keep m c main_v35 (by decide))
theorem W3_v36 : W3 m c (Proc.devRef .tc main_v36) = W2 m c (Proc.devRef .tc main_v36) := (W3_keep m c main_v36 (by decide))
theorem W3_v28 : W3 m c (Proc.devRef .tc main_v28) = W1 m c (Proc.devRef .tc main_v28) := (W3_keep m c main_v28 (by decide)).trans <| (W2_keep m c main_v28 (by decide))
theorem W5_v50 : W5 m c (Proc.devRef .tc main_v50) = W4 m c (Proc.devRef .tc main_v50) := (W5_keep m c main_v50 (by decide))
theorem W5_v28 : W5 m c (Proc.devRef .tc main_v28) = W1 m c (Proc.devRef .tc main_v28) := (W5_keep m c main_v28 (by decide)).trans <| (W4_keep m c main_v28 (by decide)).trans <| (W3_keep m c main_v28 (by decide)).trans <| (W2_keep m c main_v28 (by decide))
theorem W7_v64 : W7 m c (Proc.devRef .tc main_v64) = W6 m c (Proc.devRef .tc main_v64) := (W7_keep m c main_v64 (by decide))
theorem W1_arg0 : W1 m c (Proc.devRef .tc main_arg0) = (m ((c : Thread nD τ).loc main_arg0)) :=
  (W1_keep m c main_arg0 (by decide)).trans rfl
theorem W1_arg3 : W1 m c (Proc.devRef .tc main_arg3) = (m ((c : Thread nD τ).loc main_arg3)) :=
  (W1_keep m c main_arg3 (by decide)).trans rfl
theorem W1_arg4 : W1 m c (Proc.devRef .tc main_arg4) = (m ((c : Thread nD τ).loc main_arg4)) :=
  (W1_keep m c main_arg4 (by decide)).trans rfl
theorem W3_arg5 : W3 m c (Proc.devRef .tc main_arg5) = (m ((c : Thread nD τ).loc main_arg5)) :=
  (W3_keep m c main_arg5 (by decide)).trans <| (W2_keep m c main_arg5 (by decide)).trans <| (W1_keep m c main_arg5 (by decide)).trans rfl
theorem W3_arg6 : W3 m c (Proc.devRef .tc main_arg6) = (m ((c : Thread nD τ).loc main_arg6)) :=
  (W3_keep m c main_arg6 (by decide)).trans <| (W2_keep m c main_arg6 (by decide)).trans <| (W1_keep m c main_arg6 (by decide)).trans rfl
theorem W5_arg7 : W5 m c (Proc.devRef .tc main_arg7) = (m ((c : Thread nD τ).loc main_arg7)) :=
  (W5_keep m c main_arg7 (by decide)).trans <| (W4_keep m c main_arg7 (by decide)).trans <| (W3_keep m c main_arg7 (by decide)).trans <| (W2_keep m c main_arg7 (by decide)).trans <| (W1_keep m c main_arg7 (by decide)).trans rfl
theorem W5_arg8 : W5 m c (Proc.devRef .tc main_arg8) = (m ((c : Thread nD τ).loc main_arg8)) :=
  (W5_keep m c main_arg8 (by decide)).trans <| (W4_keep m c main_arg8 (by decide)).trans <| (W3_keep m c main_arg8 (by decide)).trans <| (W2_keep m c main_arg8 (by decide)).trans <| (W1_keep m c main_arg8 (by decide)).trans rfl
theorem W7_arg9 : W7 m c (Proc.devRef .tc main_arg9) = (m ((c : Thread nD τ).loc main_arg9)) :=
  (W7_keep m c main_arg9 (by decide)).trans <| (W6_keep m c main_arg9 (by decide)).trans <| (W5_keep m c main_arg9 (by decide)).trans <| (W4_keep m c main_arg9 (by decide)).trans <| (W3_keep m c main_arg9 (by decide)).trans <| (W2_keep m c main_arg9 (by decide)).trans <| (W1_keep m c main_arg9 (by decide)).trans rfl
theorem W7_arg10 : W7 m c (Proc.devRef .tc main_arg10) = (m ((c : Thread nD τ).loc main_arg10)) :=
  (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)).trans rfl

end Cert.KernelIdeal.Hand

end
-- ==== Proof.LibIntCount.lean ====
/-
  COUNTING WITH WORDS, THEN CONVERTING, IS COUNTING WITH REALS (at the ideal instance, where a float is an extended real).

  The host's integer scatter with an "add" body is a left fold over the update indices in row-major order: each update
  whose result index is inside the operand is added to the element it lands on. Addition of 32-bit words is
  commutative and associative, so the fold's value at an element i is a closed sum:

      scatter(x, idx, upd) i  =  x i  +  Σ { upd j  |  j an update index whose result index is i }      (scatter_addi_fold)

  From all zeros with every update the word 1 this is the word of the NUMBER c(i) of update indices that land on i.
  That number is at most the number of update indices, so when there are fewer than 2^31 of them the word's signed
  reading is c(i) itself, and its conversion to a float, at the ideal instance the signed reading as a real, is c(i).
  The host's FLOAT scatter-add is at the ideal instance the exact sum x i + Σ { upd j | j lands on i }; from zeros
  with every update the real 1 it is c(i) as well. So the two agree (sitofp_scatter_ones); the last theorem says
  the same with the zeros and ones spelled as broadcast scalar constants, the float ones by their binary32 patterns
  (0x3F800000 is 1, 0x00000000 is 0).

  No hypothesis on the indices is needed: an update that lands outside the operand is dropped by both scatters.
-/
import Idealize.ShloMosaic.PureOps.Ideal
import Idealize.ShloMosaic.PureOps.Ideal.Laws
import Idealize.ShloMosaic.Lib.ValueIdx
import Mathlib.Data.BitVec
import Mathlib.Algebra.BigOperators.Fin

noncomputable section

open scoped BigOperators

namespace Cert.Lib.IntCount

open Idealize.ShloMosaic Idealize.ShloMosaic.ValueIdx

/-- A left fold whose step adds, for each n of a list in turn, the word v n to the element g n of a family of words
    (and leaves the family alone when g n is none) holds at the element i the start's value plus the list sum of
    v n over the n with g n = some i: by induction on the list, addition being associative. The step is described
    by what it does at each element. -/
theorem foldl_add_at {ι κ : Type} [DecidableEq ι] (g : κ → Option ι) (v : κ → BitVec 32)
    (step : (ι → BitVec 32) → κ → ι → BitVec 32)
    (hstep : ∀ r n i, step r n i = r i + if g n = some i then v n else 0)
    (l : List κ) (x : ι → BitVec 32) (i : ι) :
    (l.foldl step x) i = x i + (l.map fun n => if g n = some i then v n else 0).sum := by
  induction l generalizing x with
  | nil => simp
  | cons n l ih => rw [List.foldl_cons, ih, hstep, List.map_cons, List.sum_cons, add_assoc]

/-- The host's integer scatter with an add body, in closed form: the operand's element plus the sum of the updates
    whose result index is that element. The fold runs over the row-major positions of the update indices; one step
    adds the update to the element it lands on and changes nothing else; the list sum over all positions is the sum
    over the finite type of positions, and the row-major bijection re-indexes it by the update indices themselves. -/
theorem scatter_addi_fold {s si u : Shape} (d : ScatterDims s si u) {w : Nat} (x : s.Idx → BitVec 32) (idx : IVec si w)
    (upd : u.Idx → BitVec 32) (i : s.Idx) :
    Host.scatter d IntOp.addi x idx upd i
      = x i + ∑ j ∈ Finset.univ.filter (fun j => d.resultIdx? j idx = some i), upd j := by
  unfold Host.scatter
  refine (foldl_add_at (fun n => d.resultIdx? (u.rowMajor.symm n) idx) (fun n => upd (u.rowMajor.symm n)) _ ?_
    (List.finRange u.numel) x i).trans ?_
  · intro r n i'
    cases hg : d.resultIdx? (u.rowMajor.symm n) idx with
    | none => simp
    | some k =>
      by_cases hik : i' = k
      · subst hik; simp [IntOp.addi]
      · have : ¬ k = i' := fun h => hik h.symm
        simp [hik, this]
  · congr 1
    rw [← Fin.sum_univ_def, Finset.sum_filter]
    exact Equiv.sum_comp u.rowMajor.symm (fun j => if d.resultIdx? j idx = some i then upd j else 0)

/-- The word sum of ones over a finite set is the word of the set's size. -/
theorem sum_ones_word {ι : Type} (A : Finset ι) : (∑ _j ∈ A, (1#32 : BitVec 32)) = BitVec.ofNat 32 A.card := by
  induction A using Finset.cons_induction with
  | empty => rfl
  | cons a A ha ih =>
    rw [Finset.sum_cons, ih, Finset.card_cons]
    apply BitVec.eq_of_toNat_eq
    simp [BitVec.toNat_add, BitVec.toNat_ofNat, Nat.add_comm]

/-- A number below 2^31, as a 32-bit word, reads signed as itself. -/
theorem toInt_ofNat_small (c : Nat) (hc : c < 2 ^ 31) : (BitVec.ofNat 32 c).toInt = (c : Int) := by
  have h1 : (BitVec.ofNat 32 c).toNat = c := by
    rw [BitVec.toNat_ofNat]; exact Nat.mod_eq_of_lt (by omega)
  rw [BitVec.toInt_eq_toNat_of_lt (by rw [h1]; omega), h1]

/-- Counting with words and converting is counting with reals: the integer scatter-add of ones into zeros, converted
    to a float, is at the ideal instance the float scatter-add of ones into zeros. At each element both are the number
    of update indices that land on it, which is at most the number of update indices, so below 2^31. -/
theorem sitofp_scatter_ones {s si u : Shape} (d : ScatterDims s si u) {w : Nat} (idx : IVec si w) (hu : u.numel < 2 ^ 31) :
    (sitofp (F := Ideal) .f32 (Host.scatter d IntOp.addi (fun _ => (0#32 : BitVec 32)) idx (fun _ => (1#32 : BitVec 32)))
        : FVec Ideal s .f32)
      = Host.scatterAdd (F := Ideal) d (fun _ => (0 : EReal)) idx (fun _ => (1 : EReal)) := by
  funext i
  have hc : (Finset.univ.filter (fun j => d.resultIdx? j idx = some i)).card < 2 ^ 31 :=
    lt_of_le_of_lt ((Finset.card_le_univ _).trans_eq u.card_idx) hu
  rw [sitofp_apply, scatter_addi_fold, sum_ones_word, BitVec.zero_add]
  show (((BitVec.ofNat 32 _).toInt : ℝ) : EReal) = Ideal.hostScatterAdd d (fun _ => (0 : EReal)) idx (fun _ => (1 : EReal)) i
  rw [toInt_ofNat_small _ hc]
  unfold Ideal.hostScatterAdd
  rw [zero_add, Finset.sum_const, nsmul_one, Int.cast_natCast, EReal.coe_natCast]

/-- The binary32 pattern 0x3F800000 is the real 1: sign 0, biased exponent 127 and fraction 0 denote the significand
    2^23 scaled by 2^(127 - 127 - 23), and 2^23 · 2^(-23) = 1. -/
theorem ofBits_one_f32 : Ideal.ofBits .f32 0x3F800000#32 = 1 := by
  simp [Ideal.ofBits, Ideal.ieee]
  rw [← EReal.coe_mul, ← EReal.coe_one, EReal.coe_eq_coe_iff]
  norm_num

/-- The same with the zeros and ones spelled as broadcasts of scalar constants, the float ones by their binary32
    patterns: a broadcast of a constant reads the constant everywhere, the word constants are the words 0 and 1,
    and the patterns 0x00000000 and 0x3F800000 are the reals 0 and 1. -/
theorem sitofp_scatter_ones_printed {s si u : Shape} (d : ScatterDims s si u) {w : Nat} (idx : IVec si w) (hu : u.numel < 2 ^ 31)
    (S0 : Shape) (ds : Fin S0.rank → Fin s.rank) (hs : S0.BroadcastsInDim s ds) (du : Fin S0.rank → Fin u.rank)
    (hu' : S0.BroadcastsInDim u du) :
    (sitofp (F := Ideal) .f32 (Host.scatter d IntOp.addi (broadcastInDim s ds hs (constantI S0 32 0#32)) idx
        (broadcastInDim u du hu' (constantI S0 32 1#32))) : FVec Ideal s .f32)
      = Host.scatterAdd (F := Ideal) d (broadcastInDim s ds hs (constant (F := Ideal) S0 .f32 0x00000000#32)) idx
          (broadcastInDim u du hu' (constant (F := Ideal) S0 .f32 0x3F800000#32)) := by
  have i0 : broadcastInDim s ds hs (constantI S0 32 0#32) = fun _ => (0#32 : BitVec 32) := rfl
  have i1 : broadcastInDim u du hu' (constantI S0 32 1#32) = fun _ => (1#32 : BitVec 32) := rfl
  have f0 : broadcastInDim s ds hs (constant (F := Ideal) S0 .f32 0x00000000#32) = fun _ => (0 : EReal) :=
    funext fun _ => Ideal.ofBits_zero_f32
  have f1 : broadcastInDim u du hu' (constant (F := Ideal) S0 .f32 0x3F800000#32) = fun _ => (1 : EReal) :=
    funext fun _ => ofBits_one_f32
  rw [i0, i1, f0, f1]
  exact sitofp_scatter_ones d idx hu

end Cert.Lib.IntCount
-- ==== Proof.Counts.lean ====
/-
  Counting with integers and converting the total is counting with floats, at the ideal instance: the number of edges into
  a node and the number of nodes of a graph are far below `2^31`, so the 32-bit total read signed is the number itself.
-/
import proofs.«429065_j59115929862863_2_alg».proof.Proof.Spec
import proofs.«429065_j59115929862863_2_alg».proof.Proof.LibIntCount

noncomputable section

namespace Cert.Spec

open Cert.ReferenceIdeal Cert.ReferenceIdeal.Gen Idealize.ShloMosaic

/-- The in-degrees: 1,600,000 integer ones scattered and converted are the float ones scattered. -/
theorem degI_eq (dst : IVec S1600000 32) : degI (F := Ideal) dst = degF (F := Ideal) dst := by
  unfold degI degF
  exact Cert.Lib.IntCount.sitofp_scatter_ones_printed scatter_S100000_S1600000x1_S1600000_n_0_0_1 (colE dst)
    (by simp [Shape.numel]) S_ ![] bcast_S_S100000 ![] bcast_S_S1600000

/-- The graph sizes: 100,000 integer ones scattered and converted are the float ones scattered. -/
theorem countsI_eq (batch : IVec S100000 32) : countsI (F := Ideal) batch = countsF (F := Ideal) batch := by
  unfold countsI countsF
  exact Cert.Lib.IntCount.sitofp_scatter_ones_printed scatter_S64_S100000x1_S100000_n_0_0_1 (colN batch)
    (by simp [Shape.numel]) S_ ![] bcast_S_S64 ![] bcast_S_S100000

end Cert.Spec

end
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.LibColumn.lean ====
/-
  A vector kept as a column and spread along its rows: the two layout steps a row statistic (a row's maximum,
  a row's sum) goes through before it meets the `[a, b]` array it was taken from. A length-`a` vector cast to
  `[a, 1]` reads, at `(p, 0)`, entry `p`; an `[a, 1]` column broadcast to `[a, b]` reads, at `(p, s)`, the
  column's entry `(p, 0)`, whatever `s` is.
-/
import Idealize.ShloMosaic.Lib.Pipeline.Value
import Idealize.ShloMosaic.Lib.ValueIdx

noncomputable section

namespace Cert.Attn.Column

open Idealize.ShloMosaic Idealize.ShloMosaic.ValueIdx

variable {α : Type}

/-- A length-`a` vector cast to an `[a, 1]` column reads, at `(p, u)`, the vector at `p`: both sit at row-major
    position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- An `[a, 1]` column broadcast to `[a, b]` reads, at `(p, s)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (s : Fin b) :
    broadcastTo ⟨2, ![a, b]⟩ v h (ix2 p s) = v (ix2 p (0 : Fin 1)) := by
  refine broadcastTo_apply v h (ix2 p s) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else s.val
    rw [if_pos rfl]

end Cert.Attn.Column

end
-- ==== Proof.KV.Pay01.lean ====
/-
  The dense stages of the graph network, read at one entry over plain coordinates.

  A dense stage is a matrix product plus a bias:  (x W + b)(n, q) = (∑ k, x (n, k) * W (k, q)) + b q .  The second and
  third stages first form, entry by entry, the rectified sum  max (a + h * s) 0  of an aggregate  a , the node's own row
  h  and a per-node scale  s  kept as a column, and multiply that by the weight matrix.  Over the extended reals, where
  a change of float format is the identity, the row-block programs (a matrix-unit product into a zero accumulator, the
  bias broadcast down the rows, the scale column broadcast along the rows) and the whole-array specification
  (a general dot product, the bias broadcast in two steps, the scale column broadcast in place) read, at an entry
  (row, column), as the SAME sums: the statements below give both sides the same right-hand side, so that a row block of
  the specification and the block a program writes can be compared row by row.
-/
import proofs.«429065_j59115929862863_2_alg».proof.Proof.Gen.KernelIdeal.Skeleton
import proofs.«429065_j59115929862863_2_alg».proof.Proof.Spec
import proofs.«429065_j59115929862863_2_alg».proof.Proof.LibMlp
import proofs.«429065_j59115929862863_2_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Idealize.ShloMosaic Idealize.ShloMosaic.ValueIdx Cert.KernelIdeal Cert.KernelIdeal.Gen

/-! ## The dimension numbers are those of a plain product -/

/-- The row-block product contracts the left operand's columns against the right operand's rows, with no batch
    axis: the plain 5000×128 by 128×128 product. -/
theorem kdot_plain : dot_S5000x128_S128x128_S5000x128_1_0_0_1_n_n = DotDims.plain 5000 128 128 := rfl

/-- So does the whole-array product: the plain 100000×128 by 128×128 product. -/
theorem rdot_plain : Cert.ReferenceIdeal.dot_S100000x128_S128x128_S100000x128_1_0_0_1_n_n = DotDims.plain 100000 128 128 := rfl

/-! ## A plain product at an entry, in its two spellings -/

/-- A matrix-unit product into the zero accumulator, read at (p, q), is the sum over the middle coordinate of row
    entry times column entry. -/
theorem matmul_plain_apply {N K H : ℕ} {φa φw : FTy} (d : DotDims ⟨2, ![N, K]⟩ ⟨2, ![K, H]⟩ ⟨2, ![N, H]⟩) (hd : d = DotDims.plain N K H)
    (a : FVec Ideal ⟨2, ![N, K]⟩ φa) (W : FVec Ideal ⟨2, ![K, H]⟩ φw) (p : Fin N) (q : Fin H) :
    matmul d none a W (constant (F := Ideal) ⟨2, ![N, H]⟩ .f32 0x00000000#32) (ix2 p q) = ∑ k : Fin K, a (ix2 p k) * W (ix2 k q) := by
  subst hd
  rw [show matmul (DotDims.plain N K H) none a W (constant (F := Ideal) ⟨2, ![N, H]⟩ .f32 0x00000000#32) (ix2 p q) = _ from
      Ideal.matmul_constant_zero_apply (DotDims.plain N K H) none a W (ix2 p q)]
  exact Cert.Mlp.plain_sum a W (ix2 p q)

/-- A general dot product with the same dimension numbers, read at (p, q), is the same sum. -/
theorem dotGeneral_plain_apply {N K H : ℕ} {φa φw : FTy} (d : DotDims ⟨2, ![N, K]⟩ ⟨2, ![K, H]⟩ ⟨2, ![N, H]⟩) (hd : d = DotDims.plain N K H)
    (a : FVec Ideal ⟨2, ![N, K]⟩ φa) (W : FVec Ideal ⟨2, ![K, H]⟩ φw) (p : Fin N) (q : Fin H) :
    Host.dotGeneral (F := Ideal) d none a W (ix2 p q) = ∑ k : Fin K, a (ix2 p k) * W (ix2 k q) := by
  subst hd
  rw [show Host.dotGeneral (F := Ideal) (DotDims.plain N K H) none a W (ix2 p q) = _ from
      Ideal.dotGeneral_apply (DotDims.plain N K H) none .single a W (ix2 p q)]
  exact Cert.Mlp.plain_sum a W (ix2 p q)

/-! ## The bias and the scale column at an entry -/

/-- A vector laid out as one row and broadcast down the rows, read at (p, q), is its entry q. -/
theorem row_bias_apply {N H : ℕ} (h1 : (⟨1, ![H]⟩ : Shape).ShapeCasts ⟨2, ![1, H]⟩) (h2 : (⟨2, ![1, H]⟩ : Shape).Broadcasts ⟨2, ![N, H]⟩)
    (b : (⟨1, ![H]⟩ : Shape).Idx → EReal) (p : Fin N) (q : Fin H) :
    broadcastTo (⟨2, ![N, H]⟩ : Shape) (shapeCast (⟨2, ![1, H]⟩ : Shape) b h1) h2 (ix2 p q) = b (ix1 q) :=
  (Cert.Mlp.bcast_row h2 _ p q).trans (congrFun (Cert.Mlp.row_shapeCast b h1) q)

/-- An [a, 1] column broadcast in place to [a, b], read at (p, s), is the column's entry (p, 0), whatever s is. -/
theorem bcastInDim_col_apply {a b : ℕ} (h : (⟨2, ![a, 1]⟩ : Shape).BroadcastsInDim ⟨2, ![a, b]⟩ ![0, 1])
    (v : (⟨2, ![a, 1]⟩ : Shape).Idx → EReal) (p : Fin a) (s : Fin b) :
    broadcastInDim (⟨2, ![a, b]⟩ : Shape) ![0, 1] h v (ix2 p s) = v (ix2 p (0 : Fin 1)) := by
  refine broadcastInDim_apply ![0, 1] h v (ix2 p s) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else s.val
    rw [if_pos rfl]

/-! ## The row-block programs' stored values at an entry -/

/-- The first stage's block: the product of the feature block with the weights, plus the bias. -/
theorem k0_pay1_apply (x0 : Vec Ideal S5000x128 .f32) (x1 : Vec Ideal S128x128 .f32) (x2 : Vec Ideal S128 .f32) (p : Fin 5000) (q : Fin 128) :
    k0_pay1 (F := Ideal) x0 x1 x2 (ix2 p q) = (∑ k : Fin 128, x0 (ix2 p k) * x1 (ix2 k q)) + x2 (ix1 q) := by
  unfold k0_pay1
  rw [addf_apply, row_bias_apply shapeCasts_S128_S1x128 broadcasts_S1x128_S5000x128 x2 p q,
    matmul_plain_apply _ kdot_plain _ _ p q]
  rfl

/-- The second stage's block: the rectified sum of the aggregate block and the scaled own rows, times the weights, plus
    the bias. -/
theorem k1_pay1_apply (x0 x1 : Vec Ideal S5000x128 .f32) (x2 : Vec Ideal S5000x1 .f32) (x3 : Vec Ideal S128x128 .f32) (x4 : Vec Ideal S128 .f32) (p : Fin 5000) (q : Fin 128) :
    k1_pay1 (F := Ideal) x0 x1 x2 x3 x4 (ix2 p q) = (∑ k : Fin 128, max (x0 (ix2 p k) + x1 (ix2 p k) * x2 (ix2 p 0)) (Ideal.ofBits .f32 0x00000000#32) * x3 (ix2 k q)) + x4 (ix1 q) := by
  unfold k1_pay1
  rw [shapeCast_self, shapeCast_self, shapeCast_self]
  rw [addf_apply, row_bias_apply shapeCasts_S128_S1x128 broadcasts_S1x128_S5000x128 x4 p q,
    matmul_plain_apply _ kdot_plain _ _ p q]
  refine congrArg (· + x4 (ix1 q)) (Finset.sum_congr rfl fun k _ => ?_)
  show max (x0 (ix2 p k) + x1 (ix2 p k) * broadcastTo S5000x128 x2 broadcasts_S5000x1_S5000x128 (ix2 p k)) (Ideal.ofBits .f32 0x00000000#32)
      * x3 (ix2 k q) = _
  rw [Cert.Attn.Column.broadcastTo_a1_ab_apply x2 broadcasts_S5000x1_S5000x128 p k]

/-- The third stage's block is the same function of its five inputs as the second's. -/
theorem k2_pay1_apply (x0 x1 : Vec Ideal S5000x128 .f32) (x2 : Vec Ideal S5000x1 .f32) (x3 : Vec Ideal S128x128 .f32) (x4 : Vec Ideal S128 .f32) (p : Fin 5000) (q : Fin 128) :
    k2_pay1 (F := Ideal) x0 x1 x2 x3 x4 (ix2 p q) = (∑ k : Fin 128, max (x0 (ix2 p k) + x1 (ix2 p k) * x2 (ix2 p 0)) (Ideal.ofBits .f32 0x00000000#32) * x3 (ix2 k q)) + x4 (ix1 q) :=
  k1_pay1_apply x0 x1 x2 x3 x4 p q

/-! ## The specification's stages at an entry -/

/-- A dense layer of the specification at (n, q). -/
theorem layer_apply (x : FVec Ideal Cert.ReferenceIdeal.S100000x128 .f32) (W : FVec Ideal Cert.ReferenceIdeal.S128x128 .f32) (b : FVec Ideal Cert.ReferenceIdeal.S128 .f32) (n : Fin 100000) (q : Fin 128) :
    Cert.Spec.layer x W b (ix2 n q) = (∑ k : Fin 128, x (ix2 n k) * W (ix2 k q)) + b (ix1 q) := by
  unfold Cert.Spec.layer
  rw [addf_apply, Cert.Mlp.bcast_two _ _ b n q, dotGeneral_plain_apply _ rdot_plain x W n q]

/-- The rectified combination of the specification at (n, k). -/
theorem relu_combine2_apply (ag h : FVec Ideal Cert.ReferenceIdeal.S100000x128 .f32) (sn2 : FVec Ideal Cert.ReferenceIdeal.S100000x1 .f32) (n : Fin 100000) (k : Fin 128) :
    Cert.Spec.relu (Cert.Spec.combine2 ag h sn2) (ix2 n k) = max (ag (ix2 n k) + h (ix2 n k) * sn2 (ix2 n 0)) (Ideal.ofBits .f32 0x00000000#32) := by
  unfold Cert.Spec.relu Cert.Spec.combine2
  show max (ag (ix2 n k) + h (ix2 n k) * broadcastInDim Cert.ReferenceIdeal.S100000x128 ![0, 1] Cert.ReferenceIdeal.Facts₀.bcast_S100000x1_S100000x128_0_1 sn2 (ix2 n k)) (Ideal.ofBits .f32 0x00000000#32) = _
  rw [bcastInDim_col_apply _ sn2 n k]

end Cert.KernelIdeal.Val

end
-- ==== Proof.KV.V0.lean ====
/-
  The array the first dense stage leaves.

  The stage runs over 20 grid points; point t stages rows 5000 t … 5000 t + 4999 of the feature array, the whole weight
  matrix and the whole bias, and writes back the same rows of the output array holding  x W + b  of the staged rows.  A
  row of  x W + b  depends only on that row of x, so what point t writes back is block t of the dense layer of the whole
  arrays; the 20 blocks tile the 100000 rows, so the output array ends as the dense layer itself.
-/
import proofs.«429065_j59115929862863_2_alg».proof.Proof.KI.R0
import proofs.«429065_j59115929862863_2_alg».proof.Proof.KV.Pay01
import proofs.«429065_j59115929862863_2_alg».proof.Proof.Spec

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## Where the blocks sit -/

/-- The block indices over the grid: at point t the feature window and the output window are at row block t,
    column block 0; the weights and the bias are always at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row p of row block t is row  5000 t + p  of the whole array. -/
def rowOf0 (t : Fin cfg0.N) (p : Fin 5000) : Fin 100000 :=
  ⟨t.val * 5000 + p.val, by have := lt_of_lt_of_eq t.isLt N_0; have := p.isLt; omega⟩

/-- Entry (p, k) of the feature block at point t is entry (5000 t + p, k) of the feature array. -/
theorem emb0_0 (t : Fin cfg0.N) (p : Fin 5000) (k : Fin 128) :
    ((cfg0.win 0).blk t).view.emb (ix2 p k) = (ix2 (rowOf0 t p) k : S100000x128.Idx) := by
  obtain ⟨e0, e1, -⟩ := idx_facts0 t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weight block is the weight array. -/
theorem emb0_1 (t : Fin cfg0.N) (k : Fin 128) (q : Fin 128) :
    ((cfg0.win 1).blk t).view.emb (ix2 k q) = (ix2 k q : S128x128.Idx) := by
  obtain ⟨-, -, e2, e3, -⟩ := idx_facts0 t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The bias block is the bias vector. -/
theorem emb0_2 (t : Fin cfg0.N) (q : Fin 128) :
    ((cfg0.win 2).blk t).view.emb (ix1 q) = (ix1 q : S128.Idx) := by
  obtain ⟨-, -, -, -, e4, -⟩ := idx_facts0 t
  funext a; apply Fin.ext
  match a with
  | ⟨0, _⟩ => show win0_2.index t (0 : Fin 1) * 128 + 1 * q.val = q.val; omega

/-- Entry (p, q) of the output block at point t is entry (5000 t + p, q) of the output array. -/
theorem emb0_3 (t : Fin cfg0.N) (p : Fin 5000) (q : Fin 128) :
    ((cfg0.win 3).blk t).view.emb (ix2 p q) = (ix2 (rowOf0 t p) q : S100000x128.Idx) := by
  obtain ⟨-, -, -, -, -, e5, e6⟩ := idx_facts0 t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

/-! ## What each point writes back -/

/-- The dense layer of the feature array, the weights and the bias as the region finds them. -/
abbrev G0 (c : Dev nD) : S100000x128.Idx → Elt Ideal .f32 :=
  Cert.Spec.layer (F := Ideal) (V c main_arg0 : S100000x128.Idx → EReal) (V c main_arg3 : S128x128.Idx → EReal) (V c main_arg4 : S128.Idx → EReal)

/-- Point t writes back block t of the dense layer of the whole arrays: a row of the layer reads only that row of the
    features, and the block's rows are the array's rows 5000 t … 5000 t + 4999. -/
theorem flushed0_eq (c : Dev nD) (t : Fin cfg0.N) :
    (dat0 (F := Ideal) V c).flushed 3 t
      = ((cfg0.win 3).blk t).view.read (Elt Ideal) (G0 V c) := by
  show (cfg0.win 3).cut (grid0.coords t) ((dat0 V c).after 3 t) = _
  rw [after0_3]
  funext y
  obtain ⟨p, q, rfl⟩ : ∃ (p : Fin 5000) (q : Fin 128), y = ix2 p q := ⟨y 0, y 1, eq_ix2 y⟩
  show k0_pay1 (iblk0 V c 0 t) (iblk0 V c 1 t) (iblk0 V c 2 t) (ix2 p q)
    = Cert.Spec.layer (F := Ideal) (V c main_arg0 : S100000x128.Idx → EReal) (V c main_arg3 : S128x128.Idx → EReal) (V c main_arg4 : S128.Idx → EReal) (((cfg0.win 3).blk t).view.emb (ix2 p q))
  rw [k0_pay1_apply, emb0_3 t p q, layer_apply]
  have h0 : ∀ k : Fin 128, iblk0 V c 0 t (ix2 p k) = V c main_arg0 (ix2 (rowOf0 t p) k) := fun k => by
    show V c main_arg0 (((cfg0.win 0).blk t).view.emb (ix2 p k)) = _
    rw [emb0_0 t p k]
  have h1 : ∀ k : Fin 128, iblk0 V c 1 t (ix2 k q) = V c main_arg3 (ix2 k q) := fun k => by
    show V c main_arg3 (((cfg0.win 1).blk t).view.emb (ix2 k q)) = _
    rw [emb0_1 t k q]
  have h2 : iblk0 V c 2 t (ix1 q) = V c main_arg4 (ix1 q) := by
    show V c main_arg4 (((cfg0.win 2).blk t).view.emb (ix1 q)) = _
    rw [emb0_2 t q]
  rw [h2]
  exact congrArg (· + V c main_arg4 (ix1 q)) (Finset.sum_congr rfl fun k _ => by rw [h0 k, h1 k])

/-! ## The blocks tile the array -/

/-- An index of the output array is in point t's block iff each coordinate is in the block's range on its axis. -/
theorem mem_blk0 (t : Fin cfg0.N) (i : S100000x128.Idx) :
    i ∈ ((cfg0.win 3).blk t).view.set
      ↔ ∀ a : Fin 2, win0_3.index t a * S5000x128.size a ≤ (i a).val ∧ (i a).val < win0_3.index t a * S5000x128.size a + S5000x128.size a := by
  show i ∈ ((View.whole main_v36).slice (win0_3.rect t)).set ↔ _
  rw [View.set_slice_whole, Rect.mem_set_unit]
  exact Iff.rfl

/-- Row r of the output array is in the block of point r / 5000, and every point writes its block back. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  refine ⟨t, flush0_3 t, ?_⟩
  rw [mem_blk0]
  obtain ⟨-, -, -, -, -, e5, e6⟩ := idx_facts0 t
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-! ## The array the call leaves -/

/-- After the call the output array is the dense layer of the feature array, the weights and the bias as the region
    finds them. -/
theorem final0 (c : Dev nD) :
    (dat0 (F := Ideal) V c).arrAt 3 cfg0.N = Cert.Spec.layer (F := Ideal) (V c main_arg0 : S100000x128.Idx → EReal) (V c main_arg3 : S128x128.Idx → EReal) (V c main_arg4 : S128.Idx → EReal) :=
  (dat0 (F := Ideal) V c).arrAt_eq_of_cover 3 (G0 V c) (fun t _ => flushed0_eq V c t) cover0

end Cert.KernelIdeal.Val

end
-- ==== Proof.KV.V1.lean ====
/-
  The array a combine-rectify-dense stage leaves.

  The stage runs over 20 grid points; point t stages rows 5000 t … 5000 t + 4999 of the aggregate array, of the node's own
  rows and of the per-node scale column, with the whole weight matrix and the whole bias, and writes back the same rows
  of the output array holding  max (a + h * s) 0 · W + b  of the staged rows.  A row of that expression depends only on
  the same row of a, of h and of s, so what point t writes back is block t of the dense layer of the rectified
  combination of the whole arrays; the 20 blocks tile the 100000 rows, so the output array ends as that layer itself.
-/
import proofs.«429065_j59115929862863_2_alg».proof.Proof.KI.R1
import proofs.«429065_j59115929862863_2_alg».proof.Proof.KV.Pay01
import proofs.«429065_j59115929862863_2_alg».proof.Proof.Spec

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace Call1

/-! ## Where the blocks sit -/

/-- The block indices over the grid: at point t the aggregate, the own rows, the scale column and the output are at
    row block t, column block 0; the weights and the bias are always at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row p of row block t is row  5000 t + p  of the whole array. -/
def rowOf (t : Fin cfg1.N) (p : Fin 5000) : Fin 100000 :=
  ⟨t.val * 5000 + p.val, by have := lt_of_lt_of_eq t.isLt N_1; have := p.isLt; omega⟩

/-- Entry (p, k) of the aggregate block at point t is entry (5000 t + p, k) of the aggregate array. -/
theorem emb_0 (t : Fin cfg1.N) (p : Fin 5000) (k : Fin 128) :
    ((cfg1.win 0).blk t).view.emb (ix2 p k) = (ix2 (rowOf t p) k : S100000x128.Idx) := by
  obtain ⟨e0, e1, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- Entry (p, k) of the own-rows block at point t is entry (5000 t + p, k) of that array. -/
theorem emb_1 (t : Fin cfg1.N) (p : Fin 5000) (k : Fin 128) :
    ((cfg1.win 1).blk t).view.emb (ix2 p k) = (ix2 (rowOf t p) k : S100000x128.Idx) := by
  obtain ⟨-, -, e2, e3, -⟩ := idx_facts t
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- Entry (p, 0) of the scale column's block at point t is entry (5000 t + p, 0) of the column. -/
theorem emb_2 (t : Fin cfg1.N) (p : Fin 5000) (u : Fin 1) :
    ((cfg1.win 2).blk t).view.emb (ix2 p u) = (ix2 (rowOf t p) u : S100000x1.Idx) := by
  obtain ⟨-, -, -, -, e4, e5, -⟩ := idx_facts t
  funext a; apply Fin.ext
  match a with
  | ⟨0, _⟩ => show win1_2.index t (0 : Fin 2) * 5000 + 1 * p.val = t.val * 5000 + p.val; omega
  | ⟨1, _⟩ => show win1_2.index t (1 : Fin 2) * 1 + 1 * u.val = u.val; omega

/-- The weight block is the weight array. -/
theorem emb_3 (t : Fin cfg1.N) (k : Fin 128) (q : Fin 128) :
    ((cfg1.win 3).blk t).view.emb (ix2 k q) = (ix2 k q : S128x128.Idx) := by
  obtain ⟨-, -, -, -, -, -, e6, e7, -⟩ := idx_facts t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- The bias block is the bias vector. -/
theorem emb_4 (t : Fin cfg1.N) (q : Fin 128) :
    ((cfg1.win 4).blk t).view.emb (ix1 q) = (ix1 q : S128.Idx) := by
  obtain ⟨-, -, -, -, -, -, -, -, e8, -⟩ := idx_facts t
  funext a; apply Fin.ext
  match a with
  | ⟨0, _⟩ => show win1_4.index t (0 : Fin 1) * 128 + 1 * q.val = q.val; omega

/-- Entry (p, q) of the output block at point t is entry (5000 t + p, q) of the output array. -/
theorem emb_5 (t : Fin cfg1.N) (p : Fin 5000) (q : Fin 128) :
    ((cfg1.win 5).blk t).view.emb (ix2 p q) = (ix2 (rowOf t p) q : S100000x128.Idx) := by
  obtain ⟨-, -, -, -, -, -, -, -, -, e9, e10⟩ := idx_facts t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

/-! ## What each point writes back -/

/-- The dense layer of the rectified combination of the aggregate, the own rows and the scale column, with the weights
    and the bias, all as the region finds them. -/
abbrev G (c : Dev nD) : S100000x128.Idx → Elt Ideal .f32 :=
  Cert.Spec.layer (F := Ideal)
    (Cert.Spec.relu (Cert.Spec.combine2 (V c main_v49 : S100000x128.Idx → EReal) (V c main_v36 : S100000x128.Idx → EReal) (V c main_v28 : S100000x1.Idx → EReal)))
    (V c main_arg5 : S128x128.Idx → EReal) (V c main_arg6 : S128.Idx → EReal)

/-- Point t writes back block t of that layer: a row of the layer reads only that row of the aggregate, of the own rows
    and of the scale column, and the block's rows are the arrays' rows 5000 t … 5000 t + 4999. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  funext y
  obtain ⟨p, q, rfl⟩ : ∃ (p : Fin 5000) (q : Fin 128), y = ix2 p q := ⟨y 0, y 1, eq_ix2 y⟩
  show k1_pay1 (iblk1 V c 0 t) (iblk1 V c 1 t) (iblk1 V c 2 t) (iblk1 V c 3 t) (iblk1 V c 4 t) (ix2 p q)
    = Cert.Spec.layer (F := Ideal)
        (Cert.Spec.relu (Cert.Spec.combine2 (V c main_v49 : S100000x128.Idx → EReal) (V c main_v36 : S100000x128.Idx → EReal) (V c main_v28 : S100000x1.Idx → EReal)))
        (V c main_arg5 : S128x128.Idx → EReal) (V c main_arg6 : S128.Idx → EReal) (((cfg1.win 5).blk t).view.emb (ix2 p q))
  rw [k1_pay1_apply, emb_5 t p q, layer_apply]
  have h0 : ∀ k : Fin 128, iblk1 V c 0 t (ix2 p k) = V c main_v49 (ix2 (rowOf t p) k) := fun k => by
    show V c main_v49 (((cfg1.win 0).blk t).view.emb (ix2 p k)) = _
    rw [emb_0 t p k]
  have h1 : ∀ k : Fin 128, iblk1 V c 1 t (ix2 p k) = V c main_v36 (ix2 (rowOf t p) k) := fun k => by
    show V c main_v36 (((cfg1.win 1).blk t).view.emb (ix2 p k)) = _
    rw [emb_1 t p k]
  have h2 : iblk1 V c 2 t (ix2 p (0 : Fin 1)) = V c main_v28 (ix2 (rowOf t p) (0 : Fin 1)) := by
    show V c main_v28 (((cfg1.win 2).blk t).view.emb (ix2 p (0 : Fin 1))) = _
    rw [emb_2 t p 0]
  have h3 : ∀ k : Fin 128, iblk1 V c 3 t (ix2 k q) = V c main_arg5 (ix2 k q) := fun k => by
    show V c main_arg5 (((cfg1.win 3).blk t).view.emb (ix2 k q)) = _
    rw [emb_3 t k q]
  have h4 : iblk1 V c 4 t (ix1 q) = V c main_arg6 (ix1 q) := by
    show V c main_arg6 (((cfg1.win 4).blk t).view.emb (ix1 q)) = _
    rw [emb_4 t q]
  rw [h4]
  exact congrArg (· + V c main_arg6 (ix1 q)) (Finset.sum_congr rfl fun k _ => by
    rw [relu_combine2_apply, h0 k, h1 k, h2, h3 k])

/-! ## The blocks tile the array -/

/-- An index of the output array is in point t's block iff each coordinate is in the block's range on its axis. -/
theorem mem_blk (t : Fin cfg1.N) (i : S100000x128.Idx) :
    i ∈ ((cfg1.win 5).blk t).view.set
      ↔ ∀ a : Fin 2, win1_5.index t a * S5000x128.size a ≤ (i a).val ∧ (i a).val < win1_5.index t a * S5000x128.size a + S5000x128.size a := by
  show i ∈ ((View.whole main_v50).slice (win1_5.rect t)).set ↔ _
  rw [View.set_slice_whole, Rect.mem_set_unit]
  exact Iff.rfl

/-- Row r of the output array is in the block of point r / 5000, and every point writes its block back. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  refine ⟨t, flush1_5 t, ?_⟩
  rw [mem_blk]
  obtain ⟨-, -, -, -, -, -, -, -, -, e9, e10⟩ := idx_facts t
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

end Call1

/-! ## The array the call leaves -/

/-- After the call the output array is the dense layer of the rectified combination of the aggregate array, the own rows
    and the scale column, with the weights and the bias, all as the region finds them. -/
theorem final1 (c : Dev nD) :
    (dat1 (F := Ideal) V c).arrAt 5 cfg1.N
      = Cert.Spec.layer (F := Ideal)
          (Cert.Spec.relu (Cert.Spec.combine2 (V c main_v49 : S100000x128.Idx → EReal) (V c main_v36 : S100000x128.Idx → EReal) (V c main_v28 : S100000x1.Idx → EReal)))
          (V c main_arg5 : S128x128.Idx → EReal) (V c main_arg6 : S128.Idx → EReal) :=
  (dat1 (F := Ideal) V c).arrAt_eq_of_cover 5 (Call1.G V c) (fun t _ => Call1.flushed_eq V c t) Call1.cover

end Cert.KernelIdeal.Val

end
-- ==== Proof.LibSegSum.lean ====
/-
  SEGMENT SUMS: a one-hot matrix product against a scatter-add.

  A segment sum takes rows `x n` (`n` below `N`) and a segment id `b n` for each, and adds up, for each segment `g`,
  the rows whose id is `g`.  Two programs for it meet here.

  The dense one forms the one-hot matrix of the ids, `O n g = 1` when `b n = g` and `0` otherwise, and multiplies its
  transpose into the rows: entry `(g, h)` of the product is `∑ n, O n g * x n h`.  Over the extended reals a zero
  factor kills its term whatever the other factor is, infinite or not, so that sum is the sum of `x n h` over the `n`
  with `b n = g` and nothing else: no finiteness of the rows is needed.

  The sparse one is the host's scatter with an `add` body, at the dimension numbers that send update `(n, h)` to
  operand element `(b n, h)`: update window axis 1, inserted window axis 0, the one component of the start index
  mapped to operand axis 0, the index vector on axis 1 of the ids `[N, 1]`.  The id is read as a signed integer and not
  clamped; an update whose row is not a row of the operand is dropped.  Read at `(g, h)` it is the operand there plus
  the sum of `x n h` over the `n` whose id, read signed, is `g`.

  The two agree because a 32-bit word read signed is a natural `g` below `2^31` exactly when it is the word of `g`.
  Ids outside the operand's rows contribute to neither: the scatter drops them and no column of the one-hot matrix
  matches them (or the column they match is never read).

  The dense program is usually run a block of rows at a time, its partial products added up; a sum over `B * T` rows
  is the sum over `B` blocks of the sums over each block's `T` rows (`sum_blocks`), in whatever order the blocks are
  added, sums of extended reals being commutative and associative.

  Contents: `sum_onehot_mul` (the one-hot sum); `segDims` and `hostScatterAdd_seg` (the scatter read at an element);
  `toInt_eq_natCast_iff` (word against signed reading); `sum_blocks`; `ohDot` and `ohDot_sum` (the contraction of a
  product whose two operands are both contracted on their row axis, re-indexed by the row); `blocks_onehot_eq_scatter`
  (the law).
-/
import Idealize.ShloMosaic.PureOps.Ideal
import Idealize.ShloMosaic.PureOps.Ideal.Laws
import Idealize.ShloMosaic.Lib.ValueIdx

noncomputable section

open scoped BigOperators

namespace Cert.Lib.SegSum

open Idealize.ShloMosaic Idealize.ShloMosaic.ValueIdx

/-! ## The one-hot sum -/

/-- A sum of terms each multiplied by `1` or `0` is the sum of the terms multiplied by `1`: on the extended reals
    `0 * x = 0` at the infinities too. -/
theorem sum_onehot_mul {ι : Type*} [Fintype ι] (p : ι → Prop) [DecidablePred p] (x : ι → EReal) :
    ∑ n, (if p n then (1 : EReal) else 0) * x n = ∑ n ∈ Finset.univ.filter p, x n := by
  rw [Finset.sum_filter]
  exact Finset.sum_congr rfl fun n _ => by split_ifs <;> simp

/-! ## The segment scatter read at an element -/

/-- The dimension numbers of a segment scatter: operand `[G, H]`, ids `[N, 1]`, updates `[N, H]`; their conditions
    `wf` are decided on a program's literal shapes. -/
abbrev segDims (G N H : Nat) (wf : ScatterDims.WF ⟨2, ![G, H]⟩ ⟨2, ![N, 1]⟩ ⟨2, ![N, H]⟩ [1] [0] [0] 1) :
    ScatterDims ⟨2, ![G, H]⟩ ⟨2, ![N, 1]⟩ ⟨2, ![N, H]⟩ where
  updateWindowDims := [1]
  insertedWindowDims := [0]
  scatterDimsToOperandDims := [0]
  indexVectorDim := 1
  wf := wf

variable {G N H w : Nat} (wf : ScatterDims.WF ⟨2, ![G, H]⟩ ⟨2, ![N, 1]⟩ ⟨2, ![N, H]⟩ [1] [0] [0] 1)

/-- The window coordinate on the operand's row axis is zero: that axis is inserted. -/
theorem seg_window0 (j : (⟨2, ![N, H]⟩ : Shape).Idx) : (segDims G N H wf).window j 0 = 0 := rfl
/-- The window coordinate on the operand's column axis is the update's column. -/
theorem seg_window1 (j : (⟨2, ![N, H]⟩ : Shape).Idx) : (segDims G N H wf).window j 1 = (j 1).val := rfl
/-- The window starts at column zero: no component of the start index names the column axis. -/
theorem seg_start1 (j : (⟨2, ![N, H]⟩ : Shape).Idx) (idx : IVec ⟨2, ![N, 1]⟩ w) : (segDims G N H wf).start j idx 1 = 0 := rfl
/-- The window starts at the row the update's id names, read signed. -/
theorem seg_start0 (j : (⟨2, ![N, H]⟩ : Shape).Idx) (idx : IVec ⟨2, ![N, 1]⟩ w) :
    (segDims G N H wf).start j idx 0 = (idx (ix2 (j 0) ⟨0, Nat.one_pos⟩)).toInt := by
  unfold ScatterDims.start
  rw [dif_pos (show (0 : Fin 2) ∈ (segDims G N H wf).scatterDimsToOperandDims from List.mem_singleton.mpr rfl)]
  congr 2
  funext b
  match b with
  | ⟨0, _⟩ => rfl
  | ⟨1, _⟩ => rfl

/-- Where update `(n, h)` lands: at row `idx[n, 0]`, read signed, and column `h`, when that row exists. -/
theorem seg_resultIdx?_eq_some (j : (⟨2, ![N, H]⟩ : Shape).Idx) (idx : IVec ⟨2, ![N, 1]⟩ w) (i : (⟨2, ![G, H]⟩ : Shape).Idx) :
    (segDims G N H wf).resultIdx? j idx = some i
      ↔ (idx (ix2 (j 0) ⟨0, Nat.one_pos⟩)).toInt = ((i 0).val : Int) ∧ (j 1).val = (i 1).val := by
  have hi0 : (i 0).val < G := (i 0).isLt
  have hi1 : (i 1).val < H := (i 1).isLt
  have hj1 : (j 1).val < H := (j 1).isLt
  unfold ScatterDims.resultIdx?
  split_ifs with h
  · rw [Option.some.injEq]
    have h0 := (h 0).1
    rw [seg_start0, seg_window0] at h0
    constructor
    · rintro rfl
      refine ⟨?_, ?_⟩
      · show _ = (((((segDims G N H wf).start j idx 0 + ((segDims G N H wf).window j 0 : Nat)).toNat : Nat)) : Int)
        rw [seg_start0, seg_window0]; omega
      · show _ = ((segDims G N H wf).start j idx 1 + ((segDims G N H wf).window j 1 : Nat)).toNat
        rw [seg_start1, seg_window1]; omega
    · rintro ⟨e0, e1⟩
      funext a
      refine Fin.ext ?_
      match a with
      | ⟨0, _⟩ =>
        show ((segDims G N H wf).start j idx 0 + ((segDims G N H wf).window j 0 : Nat)).toNat = (i 0).val
        rw [seg_start0, seg_window0]; omega
      | ⟨1, _⟩ =>
        show ((segDims G N H wf).start j idx 1 + ((segDims G N H wf).window j 1 : Nat)).toNat = (i 1).val
        rw [seg_start1, seg_window1]; omega
  · refine iff_of_false (by simp) ?_
    rintro ⟨e0, e1⟩
    refine h fun a => ?_
    match a with
    | ⟨0, _⟩ =>
      show 0 ≤ (segDims G N H wf).start j idx 0 + ((segDims G N H wf).window j 0 : Nat)
        ∧ (segDims G N H wf).start j idx 0 + ((segDims G N H wf).window j 0 : Nat) < (G : Int)
      rw [seg_start0, seg_window0]; omega
    | ⟨1, _⟩ =>
      show 0 ≤ (segDims G N H wf).start j idx 1 + ((segDims G N H wf).window j 1 : Nat)
        ∧ (segDims G N H wf).start j idx 1 + ((segDims G N H wf).window j 1 : Nat) < (H : Int)
      rw [seg_start1, seg_window1]; omega

/-- THE SEGMENT SCATTER-ADD READ AT `(g, h)`: the operand there plus the sum, over the rows `n` whose segment id is
    `g`, of the update's `(n, h)`. Rows whose id is no row of the operand match no `g` and are dropped. -/
theorem hostScatterAdd_seg (x : (⟨2, ![G, H]⟩ : Shape).Idx → EReal) (idx : IVec ⟨2, ![N, 1]⟩ w)
    (upd : (⟨2, ![N, H]⟩ : Shape).Idx → EReal) (i : (⟨2, ![G, H]⟩ : Shape).Idx) :
    Ideal.hostScatterAdd (segDims G N H wf) x idx upd i
      = x i + ∑ n : Fin N, if (idx (ix2 n ⟨0, Nat.one_pos⟩)).toInt = ((i 0).val : Int) then upd (ix2 n (i 1)) else 0 := by
  unfold Ideal.hostScatterAdd
  congr 1
  rw [Finset.sum_filter, sum_idx2]
  refine Finset.sum_congr rfl fun n _ => ?_
  have key : ∀ b : Fin H, (if (segDims G N H wf).resultIdx? (ix2 n b) idx = some i then upd (ix2 n b) else 0)
      = if (idx (ix2 n ⟨0, Nat.one_pos⟩)).toInt = ((i 0).val : Int) ∧ b.val = (i 1).val then upd (ix2 n b) else 0 :=
    fun b => if_congr (seg_resultIdx?_eq_some wf (ix2 n b) idx i) rfl rfl
  refine (Finset.sum_congr rfl fun b _ => key b).trans ?_
  by_cases hc : (idx (ix2 n ⟨0, Nat.one_pos⟩)).toInt = ((i 0).val : Int)
  · rw [if_pos hc]
    refine (Finset.sum_eq_single (i 1) ?_ ?_).trans ?_
    · intro b _ hb
      exact if_neg fun hh => hb (Fin.ext hh.2)
    · intro hh; exact absurd (Finset.mem_univ _) hh
    · exact if_pos ⟨hc, rfl⟩
  · rw [if_neg hc]
    exact Finset.sum_eq_zero fun b _ => if_neg fun hh => hc hh.1

/-! ## Words and blocks -/

/-- A 32-bit word read signed is the natural `g`, for `g` below `2^31`, exactly when it is the word of `g`. -/
theorem toInt_eq_natCast_iff (v : BitVec 32) (g : Nat) (hg : g < 2 ^ 31) : v.toInt = (g : Int) ↔ v = BitVec.ofNat 32 g := by
  have hg' : (BitVec.ofNat 32 g).toInt = (g : Int) := by
    have hn : (BitVec.ofNat 32 g).toNat = g := by
      rw [BitVec.toNat_ofNat]; exact Nat.mod_eq_of_lt (by omega)
    rw [BitVec.toInt_eq_toNat_of_lt (by rw [hn]; omega), hn]
  constructor
  · intro h; exact BitVec.eq_of_toInt_eq (h.trans hg'.symm)
  · rintro rfl; exact hg'

/-- A sum over `B * T` rows is the sum over the `B` blocks of `T` rows of each block's sum. -/
theorem sum_blocks {M : Type*} [AddCommMonoid M] (B T : Nat) (f : Fin (B * T) → M) :
    ∑ n, f n = ∑ t : Fin B, ∑ r : Fin T, f ⟨t.val * T + r.val, by
      have := t.isLt; have := r.isLt
      calc t.val * T + r.val < t.val * T + T := by omega
        _ = (t.val + 1) * T := by ring
        _ ≤ B * T := Nat.mul_le_mul_right T (by omega)⟩ := by
  rw [← Equiv.sum_comp finProdFinEquiv f, Fintype.sum_prod_type]
  refine Finset.sum_congr rfl fun t _ => Finset.sum_congr rfl fun r _ => congrArg f (Fin.ext ?_)
  show r.val + T * t.val = t.val * T + r.val
  ring

/-! ## The contraction of a product of two operands contracted on their row axis -/

/-- The dimension numbers of `Lᵀ · R` for `L : [T, G]` and `R : [T, H]`: both operands contracted on axis 0, their
    column axes kept, no batch axis; their conditions `wf` are decided on a program's literal shapes. -/
abbrev ohDot (T G H : Nat) (wf : DotDims.WF ⟨2, ![T, G]⟩ ⟨2, ![T, H]⟩ ⟨2, ![G, H]⟩ [0] [0] [1] [1] [] []) :
    DotDims ⟨2, ![T, G]⟩ ⟨2, ![T, H]⟩ ⟨2, ![G, H]⟩ where
  lhsContracting := [0]
  rhsContracting := [0]
  lhsNonContracting := [1]
  rhsNonContracting := [1]
  lhsBatch := []
  rhsBatch := []
  wf := wf

/-- That contraction, re-indexed by the row: entry `(g, h)` sums `L r g * R r h` over the rows `r`. -/
theorem ohDot_sum {T G H : Nat} (wf : DotDims.WF ⟨2, ![T, G]⟩ ⟨2, ![T, H]⟩ ⟨2, ![G, H]⟩ [0] [0] [1] [1] [] [])
    (L : (⟨2, ![T, G]⟩ : Shape).Idx → EReal) (R : (⟨2, ![T, H]⟩ : Shape).Idx → EReal) (j : (⟨2, ![G, H]⟩ : Shape).Idx) :
    ∑ k : (ohDot T G H wf).contr.Idx, L ((ohDot T G H wf).lhsIdx j k) * R ((ohDot T G H wf).rhsIdx j k)
      = ∑ r : Fin T, L (ix2 r (j 0)) * R (ix2 r (j 1)) := by
  rw [← Equiv.sum_comp (contrEquiv1 (ohDot T G H wf) T rfl rfl).symm]
  refine Finset.sum_congr rfl fun r _ => ?_
  have hl : (ohDot T G H wf).lhsIdx j ((contrEquiv1 (ohDot T G H wf) T rfl rfl).symm r) = ix2 r (j 0) := by
    funext a
    match a with
    | ⟨0, _⟩ => rfl
    | ⟨1, _⟩ => rfl
  have hr : (ohDot T G H wf).rhsIdx j ((contrEquiv1 (ohDot T G H wf) T rfl rfl).symm r) = ix2 r (j 1) := by
    funext a
    match a with
    | ⟨0, _⟩ => rfl
    | ⟨1, _⟩ => rfl
  exact congrArg₂ (· * ·) (congrArg L hl) (congrArg R hr)

/-! ## The law -/

/-- THE LAW. The one-hot products of the `B` blocks of `T` rows, added up, are the segment scatter-add of the rows
    into zeros: at segment `g` (a row of the scatter's operand, below `2^31`) and column `h`, the sum over the blocks
    `t` and the rows `r` of a block of `[b (t·T + r) = g] * x (t·T + r) h` is the scatter-add read at `(g, h)`. -/
theorem blocks_onehot_eq_scatter {B T G N H : Nat} (hN : N = B * T)
    (wf : ScatterDims.WF ⟨2, ![G, H]⟩ ⟨2, ![N, 1]⟩ ⟨2, ![N, H]⟩ [1] [0] [0] 1)
    (bat : IVec ⟨2, ![N, 1]⟩ 32) (x : (⟨2, ![N, H]⟩ : Shape).Idx → EReal) (i : (⟨2, ![G, H]⟩ : Shape).Idx) (hG : G ≤ 2 ^ 31)
    (row : Fin B → Fin T → Fin N) (hrow : ∀ t r, (row t r).val = t.val * T + r.val) :
    ∑ t : Fin B, ∑ r : Fin T,
        (if bat (ix2 (row t r) ⟨0, Nat.one_pos⟩) = BitVec.ofNat 32 (i 0).val then (1 : EReal) else 0) * x (ix2 (row t r) (i 1))
      = Ideal.hostScatterAdd (segDims G N H wf) (fun _ => 0) bat x i := by
  subst hN
  have hi0 : (i 0).val < G := (i 0).isLt
  rw [hostScatterAdd_seg, zero_add, sum_blocks]
  refine Finset.sum_congr rfl fun t _ => Finset.sum_congr rfl fun r _ => ?_
  have hr : row t r = ⟨t.val * T + r.val, (hrow t r) ▸ (row t r).isLt⟩ := Fin.ext (hrow t r)
  rw [← hr]
  by_cases hc : bat (ix2 (row t r) ⟨0, Nat.one_pos⟩) = BitVec.ofNat 32 (i 0).val
  · rw [if_pos hc, if_pos ((toInt_eq_natCast_iff _ _ (by omega)).2 hc), one_mul]
  · rw [if_neg hc, if_neg (fun h => hc ((toInt_eq_natCast_iff _ _ (by omega)).1 h)), zero_mul]

end Cert.Lib.SegSum

end
-- ==== Proof.KV.Pay3.lean ====
/-
  The arithmetic of the per-graph mean pool, read one entry at a time on the extended reals.

  The pool is computed in three steps.  An accumulator of shape [64, 128] (graphs by features) starts at zero.  For each
  block of 5000 nodes the one-hot matrix of the block's graph ids, O r g = 1 when node r belongs to graph g and 0 otherwise,
  is multiplied, transposed, into the block's rows  agg r + h r * sn r  (sn a column), and the product is added to the
  accumulator: entry (g, d) grows by  sum over r of O r g * (agg r d + h r d * sn r).  After the last block every row g is
  divided by the size of graph g, or by one if that is larger, multiplied by a [128, 64] matrix and a bias is added.

  The one-hot factor is a comparison of words turned into a float: the word of the comparison's truth value, widened, read as
  a signed integer, is 1 or 0.  A change of float format is the identity on the extended reals, and a matrix-unit product into
  a zero accumulator is the plain sum over the contracted axis.

  The same three steps as the specification spells them with whole-array host operations: the scatter-add of all 100000 rows
  by graph id into zeros is the sum over the 20 blocks of the blocks' one-hot products (a zero factor kills its term even when
  the other factor is infinite, so nothing needs to be finite); the head divides, multiplies and adds the bias entry by entry.
-/
import proofs.«429065_j59115929862863_2_alg».proof.Proof.Gen.KernelIdeal.Skeleton
import proofs.«429065_j59115929862863_2_alg».proof.Proof.Spec
import proofs.«429065_j59115929862863_2_alg».proof.Proof.LibSegSum
import proofs.«429065_j59115929862863_2_alg».proof.Proof.LibMlp
import proofs.«429065_j59115929862863_2_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Idealize.ShloMosaic Idealize.ShloMosaic.ValueIdx Cert.KernelIdeal.Gen

/-! ## Words -/

/-- The truth value of a comparison of two words, widened to 32 bits and read as a signed integer, is one when the words are
    equal and zero otherwise. -/
theorem onehot_word (a b : BitVec 32) :
    (FloatOps.sitofp (F := Ideal) .f32 ((IntOp.cmpi .eq a b).setWidth 32) : EReal) = if a = b then (1 : EReal) else 0 := by
  show ((((IntOp.cmpi .eq a b).setWidth 32).toInt : ℝ) : EReal) = _
  by_cases h : a = b
  · have e : IntOp.cmpi .eq a b = 1#1 := by simp [IntOp.cmpi, h]
    rw [if_pos h, e]
    norm_num
  · have e : IntOp.cmpi .eq a b = 0#1 := by
      show BitVec.ofBool (a == b) = 0#1
      rw [beq_eq_false_iff_ne.2 h]; rfl
    rw [if_neg h, e]
    norm_num

/-! ## The accumulator's first value -/

/-- The accumulator starts at zero. -/
theorem k3_pay1_apply (g : Fin 64) (d : Fin 128) : Cert.KernelIdeal.Gen.k3_pay1 (F := Ideal) (ix2 g d) = 0 := by
  unfold Cert.KernelIdeal.Gen.k3_pay1
  rw [shapeCast_self]
  exact Ideal.ofBits_zero_f32

/-! ## One block's contribution -/

/-- An [a, 1] column of words spread along its rows and compared with the column number: entry (r, g) of the one-hot matrix. -/
theorem onehot_apply (x3 : Vec Ideal S5000x1 .i32) (r : Fin 5000) (g : Fin 64) :
    (truncf .bf16 (sitofp (F := Ideal) .f32 (extui 32 (cmpi .eq (broadcastTo S5000x64 x3 broadcasts_S5000x1_S5000x64)
        (iota .tc S5000x64 32 [1] iota_S5000x64_d1_w32)) natLt_1_32)) bitsLt_bf16_f32 : FVec Ideal S5000x64 .bf16) (ix2 r g)
      = if x3 (ix2 r 0) = BitVec.ofNat 32 g.val then (1 : EReal) else 0 := by
  show FloatOps.sitofp (F := Ideal) .f32 ((IntOp.cmpi .eq (broadcastTo S5000x64 x3 broadcasts_S5000x1_S5000x64 (ix2 r g))
      (iota .tc S5000x64 32 [1] iota_S5000x64_d1_w32 (ix2 r g))).setWidth 32) = _
  rw [Cert.Attn.Column.broadcastTo_a1_ab_apply, iota_single_apply, onehot_word]

/-- A block's rows as the product sees them: the aggregate plus the node's own row times its own weight. -/
theorem rows_apply (x0 x1 : Vec Ideal S5000x128 .f32) (x2 : Vec Ideal S5000x1 .f32) (r : Fin 5000) (d : Fin 128) :
    (truncf .bf16 (addf x0 (mulf x1 (broadcastTo S5000x128 x2 broadcasts_S5000x1_S5000x128))) bitsLt_bf16_f32
        : FVec Ideal S5000x128 .bf16) (ix2 r d)
      = x0 (ix2 r d) + x1 (ix2 r d) * x2 (ix2 r 0) := by
  show x0 (ix2 r d) + x1 (ix2 r d) * broadcastTo S5000x128 x2 broadcasts_S5000x1_S5000x128 (ix2 r d) = _
  rw [Cert.Attn.Column.broadcastTo_a1_ab_apply]

/-- ONE BLOCK'S STEP: the accumulator's entry (g, d) grows by the sum, over the block's rows r, of the one-hot factor of
    (r, g) times the row's entry d. -/
theorem k3_pay2_apply (x0 x1 : Vec Ideal S5000x128 .f32) (x2 : Vec Ideal S5000x1 .f32) (x3 : Vec Ideal S5000x1 .i32)
    (a : Vec Ideal S64x128 .f32) (g : Fin 64) (d : Fin 128) :
    Cert.KernelIdeal.Gen.k3_pay2 (F := Ideal) x0 x1 x2 x3 a (ix2 g d)
      = a (ix2 g d) + ∑ r : Fin 5000, (if x3 (ix2 r 0) = BitVec.ofNat 32 g.val then (1 : EReal) else 0)
          * (x0 (ix2 r d) + x1 (ix2 r d) * x2 (ix2 r 0)) := by
  unfold Cert.KernelIdeal.Gen.k3_pay2
  simp only [shapeCast_self]
  refine congrArg (a (ix2 g d) + ·) ?_
  refine (Ideal.matmul_constant_zero_apply (Cert.Lib.SegSum.ohDot 5000 64 128 dot_S5000x64_S5000x128_S64x128_0_0_1_1_n_n_wf)
    none _ _ (ix2 g d)).trans ?_
  refine (Cert.Lib.SegSum.ohDot_sum dot_S5000x64_S5000x128_S64x128_0_0_1_1_n_n_wf _ _ (ix2 g d)).trans ?_
  exact Finset.sum_congr rfl fun r _ => congrArg₂ (· * ·) (onehot_apply x3 r g) (rows_apply x0 x1 x2 r d)

/-! ## The head: divide by the graph's size, multiply by the last matrix, add the last bias -/

/-- THE KERNEL'S HEAD at (g, o): row g of the accumulator divided by graph g's size (or by one), against column o of the
    last matrix, plus entry o of the last bias. -/
theorem k3_pay3_apply (a : Vec Ideal S64x128 .f32) (cnt : Vec Ideal S64x1 .f32) (Wp : Vec Ideal S128x64 .f32)
    (bp : Vec Ideal S64 .f32) (g : Fin 64) (o : Fin 64) :
    Cert.KernelIdeal.Gen.k3_pay3 (F := Ideal) a cnt Wp bp (ix2 g o)
      = (∑ k : Fin 128, Ideal.div (a (ix2 g k)) (max (cnt (ix2 g 0)) (Ideal.ofBits .f32 0x3F800000#32)) * Wp (ix2 k o))
          + bp (ix1 o) := by
  unfold Cert.KernelIdeal.Gen.k3_pay3
  simp only [shapeCast_self]
  refine congrArg₂ (· + ·) ?_ ?_
  · refine (Ideal.matmul_constant_zero_apply (DotDims.plain 64 128 64) none _ _ (ix2 g o)).trans ?_
    refine (Cert.Mlp.plain_sum _ _ (ix2 g o)).trans ?_
    refine Finset.sum_congr rfl fun k _ => congrArg (· * Wp (ix2 k o)) ?_
    refine congrArg (Ideal.div (a (ix2 g k))) ?_
    exact Cert.Attn.Column.broadcastTo_a1_ab_apply _ broadcasts_S64x1_S64x128 g k
  · refine (Cert.Mlp.bcast_row broadcasts_S1x64_S64x64 _ g o).trans ?_
    exact congrFun (Cert.Mlp.row_shapeCast bp shapeCasts_S64_S1x64) o

/-- An [a, 1] column laid along the rows by the host's broadcast reads, at (p, s), the column at (p, 0). -/
theorem bcastInDim_col {α : Type} {a b : ℕ} (h : (⟨2, ![a, 1]⟩ : Shape).BroadcastsInDim ⟨2, ![a, b]⟩ ![0, 1])
    (v : (⟨2, ![a, 1]⟩ : Shape).Idx → α) (p : Fin a) (s : Fin b) :
    broadcastInDim (⟨2, ![a, b]⟩ : Shape) ![0, 1] h v (ix2 p s) = v (ix2 p (0 : Fin 1)) := by
  refine broadcastInDim_apply ![0, 1] h v (ix2 p s) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else s.val
    rw [if_pos rfl]

/-- THE SPECIFICATION'S HEAD at (g, o): the same expression over the divisor column it is given. -/
theorem head_apply (sums : FVec Ideal Cert.ReferenceIdeal.S64x128 .f32) (den2 : FVec Ideal Cert.ReferenceIdeal.S64x1 .f32)
    (Wp : FVec Ideal Cert.ReferenceIdeal.S128x64 .f32) (bp : FVec Ideal Cert.ReferenceIdeal.S64 .f32) (g o : Fin 64) :
    Cert.Spec.head sums den2 Wp bp (ix2 g o)
      = (∑ k : Fin 128, Ideal.div (sums (ix2 g k)) (den2 (ix2 g 0)) * Wp (ix2 k o)) + bp (ix1 o) := by
  unfold Cert.Spec.head
  refine congrArg₂ (· + ·) ?_ ?_
  · refine (Ideal.dotGeneral_apply (DotDims.plain 64 128 64) none .single _ _ (ix2 g o)).trans ?_
    refine (Cert.Mlp.plain_sum _ _ (ix2 g o)).trans ?_
    refine Finset.sum_congr rfl fun k _ => congrArg (· * Wp (ix2 k o)) ?_
    refine congrArg (Ideal.div (sums (ix2 g k))) ?_
    exact bcastInDim_col Cert.ReferenceIdeal.Gen.bcast_S64x1_S64x128_0_1 den2 g k
  · exact Cert.Mlp.bcast_two Cert.ReferenceIdeal.Gen.bcast_S64_S1x64_1 Cert.ReferenceIdeal.Gen.bcast_S1x64_S64x64_0_1 bp g o

/-- The specification's divisor: a graph's size, or one if that is larger. -/
theorem den2_apply (cnt2 : FVec Ideal Cert.ReferenceIdeal.S64x1 .f32) (g : Fin 64) :
    Cert.Spec.den2 cnt2 (ix2 g 0) = max (cnt2 (ix2 g 0)) (Ideal.ofBits .f32 0x3F800000#32) := rfl

/-! ## The whole-array pool as a sum over blocks -/

/-- Row r of block t of the 20 blocks of 5000 rows. -/
abbrev rowOf (t : Fin 20) (r : Fin 5000) : Fin 100000 := ⟨t.val * 5000 + r.val, by have := t.isLt; have := r.isLt; omega⟩

/-- THE POOL BY BLOCKS: the specification's scatter-add of all rows by graph id into zeros, read at (g, d), is the sum over
    the 20 blocks t and a block's 5000 rows r of the one-hot factor of (row, g) times the row's entry d. -/
theorem pool_blocks (val : FVec Ideal Cert.ReferenceIdeal.S100000x128 .f32) (bat : IVec Cert.ReferenceIdeal.S100000x1 32)
    (g : Fin 64) (d : Fin 128) :
    Cert.Spec.pool val bat (ix2 g d)
      = ∑ t : Fin 20, ∑ r : Fin 5000,
          (if bat (ix2 (rowOf t r) 0) = BitVec.ofNat 32 g.val then (1 : EReal) else 0) * val (ix2 (rowOf t r) d) := by
  have hz : (broadcastInDim Cert.ReferenceIdeal.S64x128 ![] Cert.ReferenceIdeal.Gen.bcast_S_S64x128
      (constant (F := Ideal) Cert.ReferenceIdeal.S_ .f32 0x00000000#32) : FVec Ideal Cert.ReferenceIdeal.S64x128 .f32)
      = fun _ => 0 := funext fun _ => Ideal.ofBits_zero_f32
  unfold Cert.Spec.pool Host.scatterAdd
  rw [Ideal.hostScatterAdd_def, hz]
  exact (Cert.Lib.SegSum.blocks_onehot_eq_scatter (B := 20) (T := 5000) (G := 64) (N := 100000) (H := 128) rfl
    Cert.ReferenceIdeal.Gen.scatter_S64x128_S100000x1_S100000x128_1_0_0_1_wf bat val (ix2 g d) (by norm_num) rowOf
    (fun _ _ => rfl)).symm

end Cert.KernelIdeal.Val

end
-- ==== Proof.KV.V3.lean ====
/-
  What the program's fourth kernel launch (the per-graph mean pool) leaves in its output array, as one function of the arrays
  the launch finds.

  The launch walks 20 grid points.  At point t its four moving windows hold rows 5000 t .. 5000 t + 4999 of the aggregate,
  of the node rows, of the column of the nodes' own weights and of the column of graph ids; its three fixed windows hold
  the whole column of graph sizes, the whole last matrix and the whole last bias.  The body adds the block's one-hot product
  into an accumulator that starts at zero, and at the last point divides, multiplies and adds the bias into the output block,
  which is the whole [64, 64] output array and is written back once, after the last point.

  So after point n the accumulator's entry (g, d) is the sum over the points t <= n and the rows r of block t of
  [batch (5000 t + r) = g] * (agg + h * sn) (5000 t + r) d   (by induction on n);  after point 19 that is the sum over all 20
  blocks, which is the specification's scatter-add pool of  combine2 agg h sn  by graph id, read at (g, d);  the head of the
  kernel and the head of the specification are then the same expression of the same numbers, entry by entry;  and the one
  write-back covers the whole array.
-/
import proofs.«429065_j59115929862863_2_alg».proof.Proof.KI.R3Defs
import proofs.«429065_j59115929862863_2_alg».proof.Proof.KV.Pay3
import proofs.«429065_j59115929862863_2_alg».proof.Proof.Spec
import Idealize.ShloMosaic.Lib.Pipeline.Value

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

-- the arrays as the region finds them
variable (V : (c : Dev nD) → (b : Ref sig .tc) → Buf (Elt Ideal) ((c : Thread nD τ).loc b))

/-! ## Where each window's block sits -/

/-- The windows' block indices at every grid point: the four moving windows are at block row t, column 0; the three fixed
    windows and the output window are at block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 1) = 0
    ∧ win3_7.index t (0 : Fin 2) = 0 ∧ win3_7.index t (1 : Fin 2) = 0 :=
  (by decide +kernel : ∀ t : Fin grid3.N, _)

/-- Row r of the block at point t is row 5000 t + r of the array. -/
abbrev rowAt (t : Fin cfg3.N) (r : Fin 5000) : Fin 100000 :=
  ⟨t.val * 5000 + r.val, by have h : t.val < 20 := t.isLt; have := r.isLt; omega⟩

/-- The aggregate's block at point t, entry (r, d), is the aggregate's entry (5000 t + r, d). -/
theorem blk0_apply (c : Dev nD) (t : Fin cfg3.N) (r : Fin 5000) (d : Fin 128) :
    (iblk3 V c 0 t : Vec Ideal S5000x128 .f32) (ix2 r d) = (V c main_v77 : FVec Ideal S100000x128 .f32) (ix2 (rowAt t r) d) := by
  unfold iblk3
  rw [View.read_apply]
  show V c main_v77 _ = V c main_v77 _
  congr 1
  funext a
  apply Fin.ext
  obtain ⟨e0, e1, -⟩ := idx_facts3 t
  match a with
  | ⟨0, _⟩ => show win3_0.index t (0 : Fin 2) * 5000 + 1 * r.val = t.val * 5000 + r.val; rw [e0]; omega
  | ⟨1, _⟩ => show win3_0.index t (1 : Fin 2) * 128 + 1 * d.val = d.val; rw [e1]; omega

/-- The node rows' block likewise. -/
theorem blk1_apply (c : Dev nD) (t : Fin cfg3.N) (r : Fin 5000) (d : Fin 128) :
    (iblk3 V c 1 t : Vec Ideal S5000x128 .f32) (ix2 r d) = (V c main_v64 : FVec Ideal S100000x128 .f32) (ix2 (rowAt t r) d) := by
  unfold iblk3
  rw [View.read_apply]
  show V c main_v64 _ = V c main_v64 _
  congr 1
  funext a
  apply Fin.ext
  obtain ⟨-, -, e0, e1, -⟩ := idx_facts3 t
  match a with
  | ⟨0, _⟩ => show win3_1.index t (0 : Fin 2) * 5000 + 1 * r.val = t.val * 5000 + r.val; rw [e0]; omega
  | ⟨1, _⟩ => show win3_1.index t (1 : Fin 2) * 128 + 1 * d.val = d.val; rw [e1]; omega

/-- The own-weight column's block likewise. -/
theorem blk2_apply (c : Dev nD) (t : Fin cfg3.N) (r : Fin 5000) (u : Fin 1) :
    (iblk3 V c 2 t : Vec Ideal S5000x1 .f32) (ix2 r u) = (V c main_v28 : FVec Ideal S100000x1 .f32) (ix2 (rowAt t r) u) := by
  unfold iblk3
  rw [View.read_apply]
  show V c main_v28 _ = V c main_v28 _
  congr 1
  funext a
  apply Fin.ext
  obtain ⟨-, -, -, -, e0, e1, -⟩ := idx_facts3 t
  match a with
  | ⟨0, _⟩ => show win3_2.index t (0 : Fin 2) * 5000 + 1 * r.val = t.val * 5000 + r.val; rw [e0]; omega
  | ⟨1, _⟩ => show win3_2.index t (1 : Fin 2) * 1 + 1 * u.val = u.val; rw [e1]; omega

/-- The graph-id column's block likewise. -/
theorem blk3_apply (c : Dev nD) (t : Fin cfg3.N) (r : Fin 5000) (u : Fin 1) :
    (iblk3 V c 3 t : Vec Ideal S5000x1 .i32) (ix2 r u) = (V c main_v35 : IVec S100000x1 32) (ix2 (rowAt t r) u) := by
  unfold iblk3
  rw [View.read_apply]
  show V c main_v35 _ = V c main_v35 _
  congr 1
  funext a
  apply Fin.ext
  obtain ⟨-, -, -, -, -, -, e0, e1, -⟩ := idx_facts3 t
  match a with
  | ⟨0, _⟩ => show win3_3.index t (0 : Fin 2) * 5000 + 1 * r.val = t.val * 5000 + r.val; rw [e0]; omega
  | ⟨1, _⟩ => show win3_3.index t (1 : Fin 2) * 1 + 1 * u.val = u.val; rw [e1]; omega

/-- The graph-size column's block is the whole column. -/
theorem blk4_eq (c : Dev nD) (t : Fin cfg3.N) :
    (iblk3 V c 4 t : Vec Ideal S64x1 .f32) = (V c main_v34 : FVec Ideal S64x1 .f32) := by
  funext j
  unfold iblk3
  rw [View.read_apply]
  show V c main_v34 _ = V c main_v34 _
  congr 1
  funext a
  apply Fin.ext
  obtain ⟨-, -, -, -, -, -, -, -, e0, e1, -⟩ := idx_facts3 t
  match a with
  | ⟨0, _⟩ => show win3_4.index t (0 : Fin 2) * 64 + 1 * (j 0).val = (j 0).val; rw [e0]; omega
  | ⟨1, _⟩ => show win3_4.index t (1 : Fin 2) * 1 + 1 * (j 1).val = (j 1).val; rw [e1]; omega

/-- The last matrix's block is the whole matrix. -/
theorem blk5_eq (c : Dev nD) (t : Fin cfg3.N) :
    (iblk3 V c 5 t : Vec Ideal S128x64 .f32) = (V c main_arg9 : FVec Ideal S128x64 .f32) := by
  funext j
  unfold iblk3
  rw [View.read_apply]
  show V c main_arg9 _ = V c main_arg9 _
  congr 1
  funext a
  apply Fin.ext
  obtain ⟨-, -, -, -, -, -, -, -, -, -, e0, e1, -⟩ := idx_facts3 t
  match a with
  | ⟨0, _⟩ => show win3_5.index t (0 : Fin 2) * 128 + 1 * (j 0).val = (j 0).val; rw [e0]; omega
  | ⟨1, _⟩ => show win3_5.index t (1 : Fin 2) * 64 + 1 * (j 1).val = (j 1).val; rw [e1]; omega

/-- The last bias's block is the whole bias. -/
theorem blk6_eq (c : Dev nD) (t : Fin cfg3.N) :
    (iblk3 V c 6 t : Vec Ideal S64 .f32) = (V c main_arg10 : FVec Ideal S64 .f32) := by
  funext j
  unfold iblk3
  rw [View.read_apply]
  show V c main_arg10 _ = V c main_arg10 _
  congr 1
  funext a
  apply Fin.ext
  obtain ⟨-, -, -, -, -, -, -, -, -, -, -, -, e0, -⟩ := idx_facts3 t
  match a with
  | ⟨0, _⟩ => show win3_6.index t (0 : Fin 1) * 64 + 1 * (j 0).val = (j 0).val; rw [e0]; omega

/-! ## The accumulator -/

/-- The rows the pool sums, as the specification spells them, entry by entry: the aggregate plus the node's own row times
    its own weight. -/
theorem combine2_apply (ag h : FVec Ideal Cert.ReferenceIdeal.S100000x128 .f32)
    (sn2 : FVec Ideal Cert.ReferenceIdeal.S100000x1 .f32) (n : Fin 100000) (d : Fin 128) :
    Cert.Spec.combine2 ag h sn2 (ix2 n d) = ag (ix2 n d) + h (ix2 n d) * sn2 (ix2 n 0) := by
  unfold Cert.Spec.combine2
  show ag (ix2 n d) + h (ix2 n d)
      * broadcastInDim Cert.ReferenceIdeal.S100000x128 ![0, 1] Cert.ReferenceIdeal.Gen.bcast_S100000x1_S100000x128_0_1 sn2 (ix2 n d) = _
  rw [bcastInDim_col]

/-- What block t adds to the accumulator's entry (g, d). -/
def blockTerm (c : Dev nD) (g : Fin 64) (d : Fin 128) (t : Fin cfg3.N) : EReal :=
  ∑ r : Fin 5000, (if (V c main_v35 : IVec S100000x1 32) (ix2 (rowAt t r) 0) = BitVec.ofNat 32 g.val then (1 : EReal) else 0)
    * Cert.Spec.combine2 (F := Ideal) (V c main_v77 : FVec Ideal S100000x128 .f32) (V c main_v64 : FVec Ideal S100000x128 .f32)
        (V c main_v28 : FVec Ideal S100000x1 .f32) (ix2 (rowAt t r) d)

/-- One point's step: the update of an accumulator `a` by the blocks at point t adds block t's term. -/
theorem step3 (c : Dev nD) (t : Fin cfg3.N) (a : Vec Ideal S64x128 .f32) (g : Fin 64) (d : Fin 128) :
    k3_pay2 (F := Ideal) (iblk3 V c 0 t) (iblk3 V c 1 t) (iblk3 V c 2 t) (iblk3 V c 3 t) a (ix2 g d)
      = a (ix2 g d) + blockTerm V c g d t := by
  refine (k3_pay2_apply (iblk3 V c 0 t) (iblk3 V c 1 t) (iblk3 V c 2 t) (iblk3 V c 3 t) a g d).trans ?_
  refine congrArg (a (ix2 g d) + ·) (Finset.sum_congr rfl fun r _ => ?_)
  rw [blk0_apply V c t r d, blk1_apply V c t r d, blk2_apply V c t r 0, blk3_apply V c t r 0, combine2_apply]

/-- Block t's term for a natural t, zero past the grid: the summand of the running sum. -/
def termN (c : Dev nD) (g : Fin 64) (d : Fin 128) (t : ℕ) : EReal :=
  if h : t < cfg3.N then blockTerm V c g d ⟨t, h⟩ else 0

/-- THE ACCUMULATOR AFTER POINT n is the sum of the terms of the blocks 0 .. n: by induction on the point. -/
theorem acc3_apply (c : Dev nD) (g : Fin 64) (d : Fin 128) :
    ∀ (n : ℕ) (h : n < cfg3.N), acc3 V c n h (ix2 g d) = ∑ t ∈ Finset.range (n + 1), termN V c g d t
  | 0, h => by
    rw [acc3_zero]
    refine (step3 V c ⟨0, h⟩ (k3_pay1 (F := Ideal)) g d).trans ?_
    rw [k3_pay1_apply, zero_add, Finset.sum_range_one, termN, dif_pos h]
  | n + 1, h => by
    rw [acc3_succ]
    refine (step3 V c ⟨n + 1, h⟩ _ g d).trans ?_
    rw [acc3_apply c g d n (Nat.lt_of_succ_lt h), Finset.sum_range_succ _ (n + 1), termN, dif_pos h]

/-- AFTER THE LAST POINT the accumulator is the specification's pool of the combined rows by graph id. -/
theorem acc3_last (c : Dev nD) (h : 19 < cfg3.N) (g : Fin 64) (d : Fin 128) :
    acc3 V c 19 h (ix2 g d)
      = Cert.Spec.pool (F := Ideal)
          (Cert.Spec.combine2 (F := Ideal) (V c main_v77 : FVec Ideal S100000x128 .f32) (V c main_v64 : FVec Ideal S100000x128 .f32)
            (V c main_v28 : FVec Ideal S100000x1 .f32))
          (V c main_v35 : IVec S100000x1 32) (ix2 g d) := by
  rw [acc3_apply V c g d 19 h, pool_blocks]
  refine (Finset.sum_range (termN V c g d)).trans (Finset.sum_congr rfl fun t _ => ?_)
  have ht : t.val < cfg3.N := by rw [show cfg3.N = 20 from N_3]; exact t.isLt
  rw [termN, dif_pos ht]
  rfl

/-! ## The output -/

/-- What the call leaves in its output array. -/
def result3 (c : Dev nD) : FVec Ideal S64x64 .f32 :=
  Cert.Spec.head (F := Ideal)
    (Cert.Spec.pool (F := Ideal)
      (Cert.Spec.combine2 (F := Ideal) (V c main_v77 : FVec Ideal S100000x128 .f32) (V c main_v64 : FVec Ideal S100000x128 .f32)
        (V c main_v28 : FVec Ideal S100000x1 .f32))
      (V c main_v35 : IVec S100000x1 32))
    (Cert.Spec.den2 (F := Ideal) (V c main_v34 : FVec Ideal S64x1 .f32))
    (V c main_arg9 : FVec Ideal S128x64 .f32) (V c main_arg10 : FVec Ideal S64 .f32)

/-- At the last point the body's result for the output block is that array, entry by entry. -/
theorem out3_apply (c : Dev nD) (t : Fin cfg3.N) (h19 : t.val = 19) (g o : Fin 64) :
    k3_pay3 (F := Ideal) (acc3 V c t.val t.isLt) (iblk3 V c 4 t) (iblk3 V c 5 t) (iblk3 V c 6 t) (ix2 g o) = result3 V c (ix2 g o) := by
  obtain ⟨n, hn⟩ := t
  obtain rfl : n = 19 := h19
  refine (k3_pay3_apply (acc3 V c 19 hn) (iblk3 V c 4 ⟨19, hn⟩) (iblk3 V c 5 ⟨19, hn⟩) (iblk3 V c 6 ⟨19, hn⟩) g o).trans ?_
  rw [blk4_eq V c ⟨19, hn⟩, blk5_eq V c ⟨19, hn⟩, blk6_eq V c ⟨19, hn⟩]
  unfold result3
  rw [head_apply]
  refine congrArg (· + _) (Finset.sum_congr rfl fun k _ => ?_)
  rw [acc3_last V c hn g k, den2_apply]

/-- THE ONE WRITE-BACK, after the last point, writes that array: the output's block is the whole array. -/
theorem flushed3_eq (c : Dev nD) (t : Fin cfg3.N) (hf : (cfg3.win 7).flush t = true) :
    (dat3 V c).flushed 7 t = ((cfg3.win 7).blk t).view.read (Elt Ideal) (result3 V c) := by
  have hN : cfg3.N = 20 := N_3
  have h19 : t.val = 19 := by have := (flush3_7 t).mp hf; have := t.isLt; omega
  show (cfg3.win 7).cut (grid3.coords t) ((dat3 V c).after 7 t) = _
  rw [after3_7]
  funext j
  obtain ⟨g, o, rfl⟩ : ∃ (g : Fin 64) (o : Fin 64), j = ix2 g o := ⟨j 0, j 1, eq_ix2 j⟩
  rw [View.read_apply]
  refine (out3_apply V c t h19 g o).trans ?_
  show result3 V c _ = result3 V c _
  congr 1
  funext a
  apply Fin.ext
  obtain ⟨-, -, -, -, -, -, -, -, -, -, -, -, -, e0, e1⟩ := idx_facts3 t
  match a with
  | ⟨0, _⟩ => show g.val = win3_7.index t (0 : Fin 2) * 64 + 1 * g.val; rw [e0]; omega
  | ⟨1, _⟩ => show o.val = win3_7.index t (1 : Fin 2) * 64 + 1 * o.val; rw [e1]; omega

/-- The last grid point. -/
abbrev lastPt : Fin cfg3.N := ⟨19, by rw [show cfg3.N = 20 from N_3]; decide⟩

/-- THE OUTPUT ARRAY after the call: the head of the pool of the combined rows — the specification's last stages of the
    arrays the region finds. The last point's block covers every index. -/
theorem final3 (c : Dev nD) :
    (dat3 V c).arrAt 7 cfg3.N
      = Cert.Spec.head (F := Ideal)
          (Cert.Spec.pool (F := Ideal)
            (Cert.Spec.combine2 (F := Ideal) (V c main_v77 : FVec Ideal S100000x128 .f32) (V c main_v64 : FVec Ideal S100000x128 .f32)
              (V c main_v28 : FVec Ideal S100000x1 .f32))
            (V c main_v35 : IVec S100000x1 32))
          (Cert.Spec.den2 (F := Ideal) (V c main_v34 : FVec Ideal S64x1 .f32))
          (V c main_arg9 : FVec Ideal S128x64 .f32) (V c main_arg10 : FVec Ideal S64 .f32) :=
  (dat3 V c).arrAt_eq_of_cover 7 (result3 V c) (flushed3_eq V c) fun i =>
    ⟨lastPt, (flush3_7 lastPt).mpr rfl, by
      show i ∈ ((View.whole main_v78).slice (win3_7.rect lastPt)).set
      rw [View.set_slice_whole, Rect.mem_set_unit]
      intro a
      have h0 : (i 0 : Nat) < 64 := (i 0).isLt
      have h1 : (i 1 : Nat) < 64 := (i 1).isLt
      obtain ⟨-, -, -, -, -, -, -, -, -, -, -, -, -, e0, e1⟩ := idx_facts3 lastPt
      match a with
      | ⟨0, _⟩ =>
        show win3_7.index lastPt (0 : Fin 2) * 64 ≤ (i 0 : Nat) ∧ (i 0 : Nat) < win3_7.index lastPt (0 : Fin 2) * 64 + 64
        rw [e0]; omega
      | ⟨1, _⟩ =>
        show win3_7.index lastPt (1 : Fin 2) * 64 ≤ (i 1 : Nat) ∧ (i 1 : Nat) < win3_7.index lastPt (1 : Fin 2) * 64 + 64
        rw [e1]; omega⟩

end Cert.KernelIdeal.Val

end
-- ==== Proof.KV.Kval.lean ====
/-
  The idealized kernel program's last output array, followed through the buffers of the main program, is the network of
  `Spec.lean` applied to the argument arrays.
-/
import proofs.«429065_j59115929862863_2_alg».proof.Proof.KV.HostK
import proofs.«429065_j59115929862863_2_alg».proof.Proof.Counts
import proofs.«429065_j59115929862863_2_alg».proof.Proof.KV.V0
import proofs.«429065_j59115929862863_2_alg».proof.Proof.KV.V1
import proofs.«429065_j59115929862863_2_alg».proof.Proof.KV.V2
import proofs.«429065_j59115929862863_2_alg».proof.Proof.KV.V3

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem

/-! # The idealized kernel program's result is the network

Following the buffers through the fold: each pallas call's output array is a dense layer of what it was given
(`final0` … `final3`), each host stretch's aggregate is `Spec.agg` of the layer before it; composed, the last output array is
`Spec.net` of the argument arrays, with the degrees and graph sizes counted in integers — which is counting them in floats. -/

variable (m : (ℓ : Loc nD τ sig) → Buf (Elt Ideal) ℓ) (c : Dev nD)

abbrev srcK : IVec Cert.ReferenceIdeal.S1600000 32 := Cert.Spec.srcOf (m ((c : Thread nD τ).loc main_arg1))
abbrev dstK : IVec Cert.ReferenceIdeal.S1600000 32 := Cert.Spec.dstOf (m ((c : Thread nD τ).loc main_arg1))
abbrev nrmK : FVec Ideal Cert.ReferenceIdeal.S1600000 .f32 := Cert.Spec.normE (dinvK m c) (srcK m c) (dstK m c)
abbrev snK : FVec Ideal Cert.ReferenceIdeal.S100000 .f32 := Cert.Spec.selfN (dinvK m c)
/-- The three layers' matrix products and what each layer hands on. -/
abbrev h1K : FVec Ideal Cert.ReferenceIdeal.S100000x128 .f32 := Cert.Spec.layer (m ((c : Thread nD τ).loc main_arg0)) (m ((c : Thread nD τ).loc main_arg3)) (m ((c : Thread nD τ).loc main_arg4))
abbrev o1K : FVec Ideal Cert.ReferenceIdeal.S100000x128 .f32 := Cert.Spec.relu (Cert.Spec.combine (Cert.Spec.agg (h1K m c) (srcK m c) (dstK m c) (nrmK m c)) (h1K m c) (snK m c))
abbrev h2K : FVec Ideal Cert.ReferenceIdeal.S100000x128 .f32 := Cert.Spec.layer (o1K m c) (m ((c : Thread nD τ).loc main_arg5)) (m ((c : Thread nD τ).loc main_arg6))
abbrev o2K : FVec Ideal Cert.ReferenceIdeal.S100000x128 .f32 := Cert.Spec.relu (Cert.Spec.combine (Cert.Spec.agg (h2K m c) (srcK m c) (dstK m c) (nrmK m c)) (h2K m c) (snK m c))
abbrev h3K : FVec Ideal Cert.ReferenceIdeal.S100000x128 .f32 := Cert.Spec.layer (o2K m c) (m ((c : Thread nD τ).loc main_arg7)) (m ((c : Thread nD τ).loc main_arg8))
abbrev o3K : FVec Ideal Cert.ReferenceIdeal.S100000x128 .f32 := Cert.Spec.combine (Cert.Spec.agg (h3K m c) (srcK m c) (dstK m c) (nrmK m c)) (h3K m c) (snK m c)

theorem val_v36 : W2 m c (Proc.devRef .tc main_v36) = h1K m c := by
  refine (W2_arr m c 3).trans ((final0 (E1 m) c).trans ?_)
  rw [show E1 m c main_arg0 = _ from W1_arg0 m c, show E1 m c main_arg3 = _ from W1_arg3 m c, show E1 m c main_arg4 = _ from W1_arg4 m c]

theorem val_v49 : W3 m c (Proc.devRef .tc main_v49) = Cert.Spec.agg (h1K m c) (srcK m c) (dstK m c) (nrmK m c) := by
  rw [W3_v49, val_v36, W2_v1, W2_v3, W2_v26, W1_v1, W1_v3, W1_v26]

theorem val_v50 : W4 m c (Proc.devRef .tc main_v50) = h2K m c := by
  refine (W4_arr m c 5).trans ((final1 (E3 m) c).trans ?_)
  rw [show E3 m c main_v49 = _ from val_v49 m c, show E3 m c main_v36 = _ from (W3_v36 m c).trans (val_v36 m c),
    show E3 m c main_v28 = _ from (W3_v28 m c).trans (W1_v28 m c),
    show E3 m c main_arg5 = _ from W3_arg5 m c, show E3 m c main_arg6 = _ from W3_arg6 m c]
  rfl

theorem val_v63 : W5 m c (Proc.devRef .tc main_v63) = Cert.Spec.agg (h2K m c) (srcK m c) (dstK m c) (nrmK m c) := by
  rw [W5_v63, val_v50, W4_v1, W4_v3, W4_v26, W1_v1, W1_v3, W1_v26]

theorem val_v64 : W6 m c (Proc.devRef .tc main_v64) = h3K m c := by
  refine (W6_arr m c 5).trans ((final2 (E5 m) c).trans ?_)
  rw [show E5 m c main_v63 = _ from val_v63 m c, show E5 m c main_v50 = _ from (W5_v50 m c).trans (val_v50 m c),
    show E5 m c main_v28 = _ from (W5_v28 m c).trans (W1_v28 m c),
    show E5 m c main_arg7 = _ from W5_arg7 m c, show E5 m c main_arg8 = _ from W5_arg8 m c]
  rfl

theorem val_v77 : W7 m c (Proc.devRef .tc main_v77) = Cert.Spec.agg (h3K m c) (srcK m c) (dstK m c) (nrmK m c) := by
  rw [W7_v77, val_v64, W6_v1, W6_v3, W6_v26, W1_v1, W1_v3, W1_v26]

theorem val_v78 : W8 m c (Proc.devRef .tc main_v78)
    = Cert.Spec.head (Cert.Spec.pool (o3K m c) (Cert.Spec.colN (m ((c : Thread nD τ).loc main_arg2))))
        (Cert.Spec.colGf (Cert.Spec.den (Cert.Spec.countsI (m ((c : Thread nD τ).loc main_arg2))))) (m ((c : Thread nD τ).loc main_arg9)) (m ((c : Thread nD τ).loc main_arg10)) := by
  refine (W8_arr m c 7).trans ((final3 (E7 m) c).trans ?_)
  rw [show E7 m c main_v77 = _ from val_v77 m c, show E7 m c main_v64 = _ from (W7_v64 m c).trans (val_v64 m c),
    show E7 m c main_v28 = _ from (W7_v28 m c).trans (W1_v28 m c),
    show E7 m c main_v35 = _ from (W7_v35 m c).trans (W1_v35 m c),
    show E7 m c main_v34 = _ from (W7_v34 m c).trans (W1_v34 m c),
    show E7 m c main_arg9 = _ from W7_arg9 m c, show E7 m c main_arg10 = _ from W7_arg10 m c, Cert.Spec.den2_col]
  rfl

/-- THE KERNEL PROGRAM'S RESULT: the network of the argument arrays, the counts those of the reference. -/
theorem kernel_value : W8 m c (Proc.devRef .tc main_v78)
    = Cert.Spec.net (F := Ideal) (Cert.Spec.degF (Cert.Spec.dstOf (m ((c : Thread nD τ).loc main_arg1)))) (Cert.Spec.countsF (m ((c : Thread nD τ).loc main_arg2)))
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) := by
  rw [val_v78, ← Cert.Spec.degI_eq, ← Cert.Spec.countsI_eq]
  rfl

end Cert.KernelIdeal.Val

end
-- ==== Proof.RefOut.lean ====
/-
  The reference program's result, as its run states it, is the network of `Spec.lean` applied to the argument arrays, with
  the degrees and the graph sizes counted in floats.
-/
import proofs.«429065_j59115929862863_2_alg».proof.Proof.Gen.ReferenceIdeal.Run
import proofs.«429065_j59115929862863_2_alg».proof.Proof.Spec

noncomputable section

namespace Cert.RefOut

open Cert.ReferenceIdeal Cert.ReferenceIdeal.Gen Cert.ReferenceIdeal.Value Idealize.ShloMosaic Idealize.ShloMosaic.TcCoe

variable {F : FTy → Type} [FloatOps F]

set_option maxRecDepth 8192 in
/-- The composed term of the reference's operations is the network: the same operations, named. -/
theorem res_eq (m : (ℓ : Loc nD τ sig) → Buf (Elt F) ℓ) (c : Dev nD) :
    res_main_v107 (F := F) m c
      = Cert.Spec.net (F := F) (Cert.Spec.degF (Cert.Spec.dstOf (m ((c.tc : Thread nD τ).loc main_arg1))))
          (Cert.Spec.countsF (m ((c.tc : Thread nD τ).loc main_arg2)))
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold res_main_v107
  rfl

end Cert.RefOut

end
-- ==== Proof.lean ====
/-
  THE CERTIFICATE: a three-layer graph convolution network with a per-graph mean pool and a last linear map, written as four
  pipelined kernels among host operations, against its plain array-language reference.

  The two programs compute the same real function.  Both count, for every node, the edges into it, and weigh an edge by
  `(1 + deg src)^(-1/2) (1 + deg dst)^(-1/2)`; the kernel program counts with integers and converts, which is the same number.
  A layer's matrix product is computed by the kernels a block of 5000 rows at a time, each row of the product depending only on
  that row of the operand, so the blocks of the result are the blocks of the one whole product.  The per-graph sums are formed by
  the last kernel as products with one-hot matrices of the graph ids, a block of rows at a time, accumulated over the blocks:
  a zero factor kills its term on the extended reals whatever the other factor is, so this is the scatter-add of the rows,
  out-of-range ids dropped on both sides.  No law used needs finiteness of the inputs.

  `frame_*`: each program, run from any memory, terminates without fault and leaves its arguments as launched — for the kernel
  programs by composing the four host stretches and the four pipelined regions (KI/Run.lean; the same text at the word-level
  instance, K/Run.lean), for the reference from its run.  `algebraic`: the idealized kernel program's last output array is the
  network of `Spec.lean` applied to the arguments (KV/Kval.lean), and so is the reference's result (RefOut.lean).
-/
import proofs.«429065_j59115929862863_2_alg».proof.Defs
import proofs.«429065_j59115929862863_2_alg».proof.Proof.Gen.Kernel
import proofs.«429065_j59115929862863_2_alg».proof.Proof.Gen.KernelIdeal
import proofs.«429065_j59115929862863_2_alg».proof.Proof.Gen.ReferenceIdeal
import proofs.«429065_j59115929862863_2_alg».proof.Proof.Gen.Pre_finite_inputs
import proofs.«429065_j59115929862863_2_alg».proof.Proof.Gen.ReferenceIdeal.Run
import proofs.«429065_j59115929862863_2_alg».proof.Proof.K.Run
import proofs.«429065_j59115929862863_2_alg».proof.Proof.KI.Run
import proofs.«429065_j59115929862863_2_alg».proof.Proof.KV.Kval
import proofs.«429065_j59115929862863_2_alg».proof.Proof.RefOut
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the network of the arguments in their result array. -/
theorem algebraic : Cert.algebraic_KernelIdeal_ReferenceIdeal := by
  intro m g m' g' _ hagree
  refine ⟨fun c => Cert.Spec.net (F := Ideal)
      (Cert.Spec.degF (Cert.Spec.dstOf (m ((c.tc : Thread Cert.KernelIdeal.nD Cert.KernelIdeal.τ).loc Cert.KernelIdeal.main_arg1))))
      (Cert.Spec.countsF (m ((c.tc : Thread Cert.KernelIdeal.nD Cert.KernelIdeal.τ).loc Cert.KernelIdeal.main_arg2)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · refine (θ_run Cert.KernelIdeal.defs _ _).mono (fun r h c => ⟨?_, ?_⟩) (Cert.KernelIdeal.Hand.run_all (F := Ideal) m g)
    · exact (h c _ (Cert.KernelIdeal.Hand.mem_uc Cert.KernelIdeal.main_v78 (by decide))).trans (Cert.KernelIdeal.Val.kernel_value m c)
    · exact ⟨(h c _ (Cert.KernelIdeal.Hand.mem_uc Cert.KernelIdeal.main_arg0 (by decide))).trans (Cert.KernelIdeal.Hand.W8_main_arg0 m c),
        (h c _ (Cert.KernelIdeal.Hand.mem_uc Cert.KernelIdeal.main_arg1 (by decide))).trans (Cert.KernelIdeal.Hand.W8_main_arg1 m c),
        (h c _ (Cert.KernelIdeal.Hand.mem_uc Cert.KernelIdeal.main_arg2 (by decide))).trans (Cert.KernelIdeal.Hand.W8_main_arg2 m c),
        (h c _ (Cert.KernelIdeal.Hand.mem_uc Cert.KernelIdeal.main_arg3 (by decide))).trans (Cert.KernelIdeal.Hand.W8_main_arg3 m c),
        (h c _ (Cert.KernelIdeal.Hand.mem_uc Cert.KernelIdeal.main_arg4 (by decide))).trans (Cert.KernelIdeal.Hand.W8_main_arg4 m c),
        (h c _ (Cert.KernelIdeal.Hand.mem_uc Cert.KernelIdeal.main_arg5 (by decide))).trans (Cert.KernelIdeal.Hand.W8_main_arg5 m c),
        (h c _ (Cert.KernelIdeal.Hand.mem_uc Cert.KernelIdeal.main_arg6 (by decide))).trans (Cert.KernelIdeal.Hand.W8_main_arg6 m c),
        (h c _ (Cert.KernelIdeal.Hand.mem_uc Cert.KernelIdeal.main_arg7 (by decide))).trans (Cert.KernelIdeal.Hand.W8_main_arg7 m c),
        (h c _ (Cert.KernelIdeal.Hand.mem_uc Cert.KernelIdeal.main_arg8 (by decide))).trans (Cert.KernelIdeal.Hand.W8_main_arg8 m c),
        (h c _ (Cert.KernelIdeal.Hand.mem_uc Cert.KernelIdeal.main_arg9 (by decide))).trans (Cert.KernelIdeal.Hand.W8_main_arg9 m c),
        (h c _ (Cert.KernelIdeal.Hand.mem_uc Cert.KernelIdeal.main_arg10 (by decide))).trans (Cert.KernelIdeal.Hand.W8_main_arg10 m c)⟩
  · refine (θ_run Cert.ReferenceIdeal.defs _ _).mono (fun r h c => ⟨(h c).1.trans ?_, (h c).2⟩)
      (Cert.ReferenceIdeal.Value.run (F := Ideal) m' g')
    obtain ⟨e0, e1, e2, e3, e4, e5, e6, e7, e8, e9, e10⟩ := hagree c
    rw [Cert.RefOut.res_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
